-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x32x32 : Shape := ⟨4, ![64, 256, 32, 32]⟩
abbrev S_ : Shape := ⟨0, ![]⟩

class Facts : Prop where
  bcast_S_S64x256x32x32 : S_.BroadcastsInDim S64x256x32x32 (![] : Fin 0 → Fin S64x256x32x32.rank)
  reducesTo_S64x256x32x32_S_d0_1_2_3 : S64x256x32x32.ReducesTo [0, 1, 2, 3] S_
  h_S_ : 0 < S_.numel

variable [Facts]

def fn_part1 {F : FTy → Type} [FloatOps F] (main_arg0 : FVec F S64x256x32x32 .f32) (main_arg1 : FVec F S64x256x32x32 .f32) (main_v16 : IVec S_ 1) (main_cst_4 : FVec F S_ .f32) : IVec S_ 1 :=
  let main_v17 : FVec F S64x256x32x32 .f32 := broadcastInDim S64x256x32x32 ![] bcast_S_S64x256x32x32 main_cst_4
  let main_v18 : IVec S64x256x32x32 1 := cmpf .oge main_arg0 main_v17
  let main_c_5 : IVec S_ 1 := constantI S_ 1 1#1
  let main_v19 : IVec S_ 1 := (fun x v => Host.reduce IntOp.andi x v reducesTo_S64x256x32x32_S_d0_1_2_3 h_S_) main_v18 main_c_5
  let main_v20 : IVec S_ 1 := andi main_v16 main_v19
  let main_cst_6 : FVec F S_ .f32 := constant S_ .f32 0x00000000#32
  let main_v21 : FVec F S64x256x32x32 .f32 := broadcastInDim S64x256x32x32 ![] bcast_S_S64x256x32x32 main_cst_6
  let main_v22 : IVec S64x256x32x32 1 := cmpf .oge main_arg1 main_v21
  let main_c_7 : IVec S_ 1 := constantI S_ 1 1#1
  let main_v23 : IVec S_ 1 := (fun x v => Host.reduce IntOp.andi x v reducesTo_S64x256x32x32_S_d0_1_2_3 h_S_) main_v22 main_c_7
  let main_v24 : IVec S_ 1 := andi main_v20 main_v23
  main_v24

def fn {F : FTy → Type} [FloatOps F] (main_arg0 : FVec F S64x256x32x32 .f32) (main_arg1 : FVec F S64x256x32x32 .f32) : IVec S_ 1 :=
  let main_v0 : FVec F S64x256x32x32 .f32 := Host.absf main_arg0
  let main_cst : FVec F S_ .f32 := constant S_ .f32 0x7F800000#32
  let main_v1 : FVec F S64x256x32x32 .f32 := broadcastInDim S64x256x32x32 ![] bcast_S_S64x256x32x32 main_cst
  let main_v2 : IVec S64x256x32x32 1 := cmpf .olt main_v0 main_v1
  let main_c : IVec S_ 1 := constantI S_ 1 1#1
  let main_v3 : IVec S_ 1 := (fun x v => Host.reduce IntOp.andi x v reducesTo_S64x256x32x32_S_d0_1_2_3 h_S_) main_v2 main_c
  let main_v4 : FVec F S64x256x32x32 .f32 := Host.absf main_arg1
  let main_cst_0 : FVec F S_ .f32 := constant S_ .f32 0x7F800000#32
  let main_v5 : FVec F S64x256x32x32 .f32 := broadcastInDim S64x256x32x32 ![] bcast_S_S64x256x32x32 main_cst_0
  let main_v6 : IVec S64x256x32x32 1 := cmpf .olt main_v4 main_v5
  let main_c_1 : IVec S_ 1 := constantI S_ 1 1#1
  let main_v7 : IVec S_ 1 := (fun x v => Host.reduce IntOp.andi x v reducesTo_S64x256x32x32_S_d0_1_2_3 h_S_) main_v6 main_c_1
  let main_v8 : IVec S_ 1 := andi main_v3 main_v7
  let main_v9 : FVec F S64x256x32x32 .f32 := Host.floor main_arg0
  let main_v10 : IVec S64x256x32x32 1 := cmpf .oeq main_arg0 main_v9
  let main_c_2 : IVec S_ 1 := constantI S_ 1 1#1
  let main_v11 : IVec S_ 1 := (fun x v => Host.reduce IntOp.andi x v reducesTo_S64x256x32x32_S_d0_1_2_3 h_S_) main_v10 main_c_2
  let main_v12 : IVec S_ 1 := andi main_v8 main_v11
  let main_v13 : FVec F S64x256x32x32 .f32 := Host.floor main_arg1
  let main_v14 : IVec S64x256x32x32 1 := cmpf .oeq main_arg1 main_v13
  let main_c_3 : IVec S_ 1 := constantI S_ 1 1#1
  let main_v15 : IVec S_ 1 := (fun x v => Host.reduce IntOp.andi x v reducesTo_S64x256x32x32_S_d0_1_2_3 h_S_) main_v14 main_c_3
  let main_v16 : IVec S_ 1 := andi main_v12 main_v15
  let main_cst_4 : FVec F S_ .f32 := constant S_ .f32 0x00000000#32
  fn_part1 (F := F) main_arg0 main_arg1 main_v16 main_cst_4
-- ==== Kernel.lean ====
abbrev S64x256x32x32 : Shape := ⟨4, ![64, 256, 32, 32]⟩
abbrev S64x262144 : Shape := ⟨2, ![64, 262144]⟩
abbrev S64x256 : Shape := ⟨2, ![64, 256]⟩
abbrev S16x256 : Shape := ⟨2, ![16, 256]⟩
abbrev S16x256x256 : Shape := ⟨3, ![16, 256, 256]⟩
abbrev S16x256x1 : Shape := ⟨3, ![16, 256, 1]⟩
abbrev S_ : Shape := ⟨0, ![]⟩
abbrev S64 : Shape := ⟨1, ![64]⟩
abbrev S64x1 : Shape := ⟨2, ![64, 1]⟩

abbrev nBuf : Space → Nat
  | .hbm => 58
  | .vmem => 8
  | .smem => 0
  | _ => 0

abbrev bufTy : (tb : Table) → Fin (tcTables nBuf tb) → BufTy
  | .hbm, ⟨0, _⟩ => ⟨S64x256x32x32, .f32⟩
  | .hbm, ⟨1, _⟩ => ⟨S64x256x32x32, .f32⟩
  | .hbm, ⟨2, _⟩ => ⟨S64x262144, .f32⟩
  | .hbm, ⟨3, _⟩ => ⟨S64x256, .f32⟩
  | .hbm, ⟨4, _⟩ => ⟨S_, .f32⟩
  | .hbm, ⟨5, _⟩ => ⟨S64x256, .f32⟩
  | .hbm, ⟨6, _⟩ => ⟨S64x256, .f32⟩
  | .hbm, ⟨7, _⟩ => ⟨S64x256, .f32⟩
  | .hbm, ⟨8, _⟩ => ⟨S64x262144, .f32⟩
  | .hbm, ⟨9, _⟩ => ⟨S64x256, .f32⟩
  | .hbm, ⟨10, _⟩ => ⟨S_, .f32⟩
  | .hbm, ⟨11, _⟩ => ⟨S64x256, .f32⟩
  | .hbm, ⟨12, _⟩ => ⟨S64x256, .f32⟩
  | .hbm, ⟨13, _⟩ => ⟨S64x256, .f32⟩
  | .hbm, ⟨14, _⟩ => ⟨S_, .f32⟩
  | .hbm, ⟨15, _⟩ => ⟨S64x256, .f32⟩
  | .hbm, ⟨16, _⟩ => ⟨S64x256, .f32⟩
  | .hbm, ⟨17, _⟩ => ⟨S_, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S64x1, .f32⟩
  | .hbm, ⟨23, _⟩ => ⟨S64x256, .f32⟩
  | .hbm, ⟨24, _⟩ => ⟨S64x256, .f32⟩
  | .hbm, ⟨25, _⟩ => ⟨S64x256, .f32⟩
  | .hbm, ⟨26, _⟩ => ⟨S_, .f32⟩
  | .hbm, ⟨27, _⟩ => ⟨S64, .f32⟩
  | .hbm, ⟨28, _⟩ => ⟨S64x1, .f32⟩
  | .hbm, ⟨29, _⟩ => ⟨S64x1, .f32⟩
  | .hbm, ⟨30, _⟩ => ⟨S64x256, .f32⟩
  | .hbm, ⟨31, _⟩ => ⟨S64x256, .f32⟩
  | .hbm, ⟨32, _⟩ => ⟨S_, .f32⟩
  | .hbm, ⟨33, _⟩ => ⟨S64x256, .f32⟩
  | .hbm, ⟨34, _⟩ => ⟨S64x256, .f32⟩
  | .hbm, ⟨35, _⟩ => ⟨S_, .f32⟩
  | .hbm, ⟨36, _⟩ => ⟨S64, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S64x1, .f32⟩
  | .hbm, ⟨41, _⟩ => ⟨S64x256, .f32⟩
  | .hbm, ⟨42, _⟩ => ⟨S64x256, .f32⟩
  | .hbm, ⟨43, _⟩ => ⟨S64x256, .f32⟩
  | .hbm, ⟨44, _⟩ => ⟨S_, .f32⟩
  | .hbm, ⟨45, _⟩ => ⟨S64, .f32⟩
  | .hbm, ⟨46, _⟩ => ⟨S64x1, .f32⟩
  | .hbm, ⟨47, _⟩ => ⟨S64x256, .f32⟩
  | .hbm, ⟨48, _⟩ => ⟨S64x256, .f32⟩
  | .hbm, ⟨49, _⟩ => ⟨S64x256, .f32⟩
  | .hbm, ⟨50, _⟩ => ⟨S64x256, .f32⟩
  | .hbm, ⟨51, _⟩ => ⟨S64x256, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | .local _ .vmem, ⟨7, _⟩ => ⟨S16x256, .f32⟩
  | _, _ => ⟨S64x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_call0_cst : Ref sig .tc := ⟨.hbm, 17, rfl⟩
abbrev main_call0_v0 : Ref sig .tc := ⟨.hbm, 18, rfl⟩
abbrev main_call0_cst_0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_cst_1 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_cst_3 : Ref sig .tc := ⟨.hbm, 35, rfl⟩
abbrev main_v15 : Ref sig .tc := ⟨.hbm, 36, rfl⟩
abbrev main_cst_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_6 : Ref sig .tc := ⟨.hbm, 52, rfl⟩
abbrev main_v29 : Ref sig .tc := ⟨.hbm, 53, rfl⟩
abbrev main_cst_7 : Ref sig .tc := ⟨.hbm, 54, rfl⟩
abbrev main_v30 : Ref sig .tc := ⟨.hbm, 55, rfl⟩
abbrev main_cst_8 : Ref sig .tc := ⟨.hbm, 56, rfl⟩
abbrev main_v31 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨2, ![4, 1024], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![4, 1024], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S16x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S16x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

class Facts₀ : Prop where
  shapeCasts_S64x256x32x32_S64x262144 : S64x256x32x32.ShapeCasts S64x262144
  inb_S16x256_S16x256_0_0 : ∀ a, (![0, 0] : Fin 2 → Nat) a + S16x256.size a ≤ S16x256.size a
  h_S16x256 : 0 < S16x256.numel
  shapeCasts_S16x256_S16x256 : S16x256.ShapeCasts S16x256
  iota_S16x256x256_d2_w32 : S16x256x256.Iotas .tc 32 [2]
  shapeCasts_S16x256_S16x256x1 : S16x256.ShapeCasts S16x256x1
  broadcasts_S16x256x1_S16x256x256 : S16x256x1.Broadcasts S16x256x256
  natLt_1_32 : 1 < 32
  reduces_S16x256x256_S16x256 : S16x256x256.Reduces [1] S16x256
  bcast_S_S64x256 : S_.BroadcastsInDim S64x256 (![] : Fin 0 → Fin S64x256.rank)
  reducesTo_S64x256_S64_d1 : S64x256.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  reducesTo_S64x256_S_d0_1 : S64x256.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256.size a ≤ S64x262144.size a
  hwx0_0 : ∀ i : grid0.Coords, EltTy.bits .f32 = 32 ∨ (Rect.block (s := S64x262144) S16x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S64x256.size a
  hwx0_1 : ∀ i : grid0.Coords, EltTy.bits .f32 = 32 ∨ (Rect.block (s := S64x256) S16x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x256.size a ≤ S64x262144.size a
  hwx1_0 : ∀ i : grid1.Coords, EltTy.bits .f32 = 32 ∨ (Rect.block (s := S64x262144) S16x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x256.size a ≤ S64x256.size a
  hwx1_1 : ∀ i : grid1.Coords, EltTy.bits .f32 = 32 ∨ (Rect.block (s := S64x256) S16x256.size (cc1_transform_1 i) (hinb1_1 i)).WholeWords (EltTy.packing .f32)

variable [Facts₀]

abbrev win0_0 : Pipeline.Window sig grid0 :=
  Pipeline.Window.ofSpec (Memref.whole main_v0) S16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v5) S16x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S16x256.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S64x256x32x32 : Shape := ⟨4, ![64, 256, 32, 32]⟩
abbrev S64x262144 : Shape := ⟨2, ![64, 262144]⟩
abbrev S_ : Shape := ⟨0, ![]⟩
abbrev S64x256 : Shape := ⟨2, ![64, 256]⟩
abbrev S64 : Shape := ⟨1, ![64]⟩
abbrev S64x1 : Shape := ⟨2, ![64, 1]⟩
abbrev S64x262144x1 : Shape := ⟨3, ![64, 262144, 1]⟩
abbrev S64x262144x2 : Shape := ⟨3, ![64, 262144, 2]⟩

abbrev nBuf : Space → Nat
  | .hbm => 108
  | .vmem => 0
  | .smem => 0
  | _ => 0

abbrev bufTy : (tb : Table) → Fin (tcTables nBuf tb) → BufTy
  | .hbm, ⟨0, _⟩ => ⟨S64x256x32x32, .f32⟩
  | .hbm, ⟨1, _⟩ => ⟨S64x256x32x32, .f32⟩
  | .hbm, ⟨2, _⟩ => ⟨S64x262144, .f32⟩
  | .hbm, ⟨3, _⟩ => ⟨S64x262144, .i32⟩
  | .hbm, ⟨4, _⟩ => ⟨S_, .f32⟩
  | .hbm, ⟨5, _⟩ => ⟨S64x256, .f32⟩
  | .hbm, ⟨6, _⟩ => ⟨S64, .i32⟩
  | .hbm, ⟨7, _⟩ => ⟨S64x1, .i32⟩
  | .hbm, ⟨8, _⟩ => ⟨S_, .i32⟩
  | .hbm, ⟨9, _⟩ => ⟨S64x1, .i32⟩
  | .hbm, ⟨10, _⟩ => ⟨S64x1, .i1⟩
  | .hbm, ⟨11, _⟩ => ⟨S_, .i32⟩
  | .hbm, ⟨12, _⟩ => ⟨S64x1, .i32⟩
  | .hbm, ⟨13, _⟩ => ⟨S64x1, .i32⟩
  | .hbm, ⟨14, _⟩ => ⟨S64x1, .i32⟩
  | .hbm, ⟨15, _⟩ => ⟨S_, .i32⟩
  | .hbm, ⟨16, _⟩ => ⟨S64x262144, .i32⟩
  | .hbm, ⟨17, _⟩ => ⟨S64x262144, .i1⟩
  | .hbm, ⟨18, _⟩ => ⟨S_, .i32⟩
  | .hbm, ⟨19, _⟩ => ⟨S64x262144, .i32⟩
  | .hbm, ⟨20, _⟩ => ⟨S64x262144, .i32⟩
  | .hbm, ⟨21, _⟩ => ⟨S64x262144, .i32⟩
  | .hbm, ⟨22, _⟩ => ⟨S64x262144, .i32⟩
  | .hbm, ⟨23, _⟩ => ⟨S64x262144x1, .i32⟩
  | .hbm, ⟨24, _⟩ => ⟨S64x262144x1, .i32⟩
  | .hbm, ⟨25, _⟩ => ⟨S64x262144x2, .i32⟩
  | .hbm, ⟨26, _⟩ => ⟨S_, .f32⟩
  | .hbm, ⟨27, _⟩ => ⟨S64x262144, .f32⟩
  | .hbm, ⟨28, _⟩ => ⟨S64x256, .f32⟩
  | .hbm, ⟨29, _⟩ => ⟨S_, .f32⟩
  | .hbm, ⟨30, _⟩ => ⟨S64x256, .f32⟩
  | .hbm, ⟨31, _⟩ => ⟨S64x256, .f32⟩
  | .hbm, ⟨32, _⟩ => ⟨S64x256, .f32⟩
  | .hbm, ⟨33, _⟩ => ⟨S64x262144, .f32⟩
  | .hbm, ⟨34, _⟩ => ⟨S64x262144, .i32⟩
  | .hbm, ⟨35, _⟩ => ⟨S_, .f32⟩
  | .hbm, ⟨36, _⟩ => ⟨S64x256, .f32⟩
  | .hbm, ⟨37, _⟩ => ⟨S64, .i32⟩
  | .hbm, ⟨38, _⟩ => ⟨S64x1, .i32⟩
  | .hbm, ⟨39, _⟩ => ⟨S_, .i32⟩
  | .hbm, ⟨40, _⟩ => ⟨S64x1, .i32⟩
  | .hbm, ⟨41, _⟩ => ⟨S64x1, .i1⟩
  | .hbm, ⟨42, _⟩ => ⟨S_, .i32⟩
  | .hbm, ⟨43, _⟩ => ⟨S64x1, .i32⟩
  | .hbm, ⟨44, _⟩ => ⟨S64x1, .i32⟩
  | .hbm, ⟨45, _⟩ => ⟨S64x1, .i32⟩
  | .hbm, ⟨46, _⟩ => ⟨S_, .i32⟩
  | .hbm, ⟨47, _⟩ => ⟨S64x262144, .i32⟩
  | .hbm, ⟨48, _⟩ => ⟨S64x262144, .i1⟩
  | .hbm, ⟨49, _⟩ => ⟨S_, .i32⟩
  | .hbm, ⟨50, _⟩ => ⟨S64x262144, .i32⟩
  | .hbm, ⟨51, _⟩ => ⟨S64x262144, .i32⟩
  | .hbm, ⟨52, _⟩ => ⟨S64x262144, .i32⟩
  | .hbm, ⟨53, _⟩ => ⟨S64x262144, .i32⟩
  | .hbm, ⟨54, _⟩ => ⟨S64x262144x1, .i32⟩
  | .hbm, ⟨55, _⟩ => ⟨S64x262144x1, .i32⟩
  | .hbm, ⟨56, _⟩ => ⟨S64x262144x2, .i32⟩
  | .hbm, ⟨57, _⟩ => ⟨S_, .f32⟩
  | .hbm, ⟨58, _⟩ => ⟨S64x262144, .f32⟩
  | .hbm, ⟨59, _⟩ => ⟨S64x256, .f32⟩
  | .hbm, ⟨60, _⟩ => ⟨S_, .f32⟩
  | .hbm, ⟨61, _⟩ => ⟨S64x256, .f32⟩
  | .hbm, ⟨62, _⟩ => ⟨S64x256, .f32⟩
  | .hbm, ⟨63, _⟩ => ⟨S64x256, .f32⟩
  | .hbm, ⟨64, _⟩ => ⟨S_, .f32⟩
  | .hbm, ⟨65, _⟩ => ⟨S64x256, .f32⟩
  | .hbm, ⟨66, _⟩ => ⟨S64x256, .f32⟩
  | .hbm, ⟨67, _⟩ => ⟨S_, .f32⟩
  | .hbm, ⟨68, _⟩ => ⟨S64, .f32⟩
  | .hbm, ⟨69, _⟩ => ⟨S_, .f32⟩
  | .hbm, ⟨70, _⟩ => ⟨S64, .f32⟩
  | .hbm, ⟨71, _⟩ => ⟨S64, .f32⟩
  | .hbm, ⟨72, _⟩ => ⟨S64x1, .f32⟩
  | .hbm, ⟨73, _⟩ => ⟨S64x256, .f32⟩
  | .hbm, ⟨74, _⟩ => ⟨S64x256, .f32⟩
  | .hbm, ⟨75, _⟩ => ⟨S64x256, .f32⟩
  | .hbm, ⟨76, _⟩ => ⟨S_, .f32⟩
  | .hbm, ⟨77, _⟩ => ⟨S64, .f32⟩
  | .hbm, ⟨78, _⟩ => ⟨S64x1, .f32⟩
  | .hbm, ⟨79, _⟩ => ⟨S64x1, .f32⟩
  | .hbm, ⟨80, _⟩ => ⟨S64x256, .f32⟩
  | .hbm, ⟨81, _⟩ => ⟨S64x256, .f32⟩
  | .hbm, ⟨82, _⟩ => ⟨S_, .f32⟩
  | .hbm, ⟨83, _⟩ => ⟨S64x256, .f32⟩
  | .hbm, ⟨84, _⟩ => ⟨S64x256, .f32⟩
  | .hbm, ⟨85, _⟩ => ⟨S_, .f32⟩
  | .hbm, ⟨86, _⟩ => ⟨S64, .f32⟩
  | .hbm, ⟨87, _⟩ => ⟨S_, .f32⟩
  | .hbm, ⟨88, _⟩ => ⟨S64, .f32⟩
  | .hbm, ⟨89, _⟩ => ⟨S64, .f32⟩
  | .hbm, ⟨90, _⟩ => ⟨S64x1, .f32⟩
  | .hbm, ⟨91, _⟩ => ⟨S64x256, .f32⟩
  | .hbm, ⟨92, _⟩ => ⟨S64x256, .f32⟩
  | .hbm, ⟨93, _⟩ => ⟨S64x256, .f32⟩
  | .hbm, ⟨94, _⟩ => ⟨S_, .f32⟩
  | .hbm, ⟨95, _⟩ => ⟨S64, .f32⟩
  | .hbm, ⟨96, _⟩ => ⟨S64x1, .f32⟩
  | .hbm, ⟨97, _⟩ => ⟨S64x256, .f32⟩
  | .hbm, ⟨98, _⟩ => ⟨S64x256, .f32⟩
  | .hbm, ⟨99, _⟩ => ⟨S64x256, .f32⟩
  | .hbm, ⟨100, _⟩ => ⟨S64x256, .f32⟩
  | .hbm, ⟨101, _⟩ => ⟨S64x256, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | _, _ => ⟨S64x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_6 : Ref sig .tc := ⟨.hbm, 39, rfl⟩
abbrev main_v29 : Ref sig .tc := ⟨.hbm, 40, rfl⟩
abbrev main_v30 : Ref sig .tc := ⟨.hbm, 41, rfl⟩
abbrev main_c_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_8 : Ref sig .tc := ⟨.hbm, 46, rfl⟩
abbrev main_v34 : Ref sig .tc := ⟨.hbm, 47, rfl⟩
abbrev main_v35 : Ref sig .tc := ⟨.hbm, 48, rfl⟩
abbrev main_c_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_10 : Ref sig .tc := ⟨.hbm, 57, rfl⟩
abbrev main_v43 : Ref sig .tc := ⟨.hbm, 58, rfl⟩
abbrev main_v44 : Ref sig .tc := ⟨.hbm, 59, rfl⟩
abbrev main_cst_11 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_12 : Ref sig .tc := ⟨.hbm, 64, rfl⟩
abbrev main_v48 : Ref sig .tc := ⟨.hbm, 65, rfl⟩
abbrev main_v49 : Ref sig .tc := ⟨.hbm, 66, rfl⟩
abbrev main_call0_cst : Ref sig .tc := ⟨.hbm, 67, rfl⟩
abbrev main_call0_v0 : Ref sig .tc := ⟨.hbm, 68, rfl⟩
abbrev main_call0_cst_0 : Ref sig .tc := ⟨.hbm, 69, rfl⟩
abbrev main_call0_v1 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_call0_v5 : Ref sig .tc := ⟨.hbm, 74, rfl⟩
abbrev main_call0_v6 : Ref sig .tc := ⟨.hbm, 75, rfl⟩
abbrev main_call0_cst_1 : Ref sig .tc := ⟨.hbm, 76, rfl⟩
abbrev main_call0_v7 : Ref sig .tc := ⟨.hbm, 77, rfl⟩
abbrev main_call0_v8 : Ref sig .tc := ⟨.hbm, 78, rfl⟩
abbrev main_call0_v9 : Ref sig .tc := ⟨.hbm, 79, rfl⟩
abbrev main_call0_v10 : Ref sig .tc := ⟨.hbm, 80, rfl⟩
abbrev main_v50 : Ref sig .tc := ⟨.hbm, 81, rfl⟩
abbrev main_cst_13 : Ref sig .tc := ⟨.hbm, 82, rfl⟩
abbrev main_v51 : Ref sig .tc := ⟨.hbm, 83, rfl⟩
abbrev main_v52 : Ref sig .tc := ⟨.hbm, 84, rfl⟩
abbrev main_cst_14 : Ref sig .tc := ⟨.hbm, 85, rfl⟩
abbrev main_v53 : Ref sig .tc := ⟨.hbm, 86, rfl⟩
abbrev main_cst_15 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_16 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_17 : Ref sig .tc := ⟨.hbm, 102, rfl⟩
abbrev main_v67 : Ref sig .tc := ⟨.hbm, 103, rfl⟩
abbrev main_cst_18 : Ref sig .tc := ⟨.hbm, 104, rfl⟩
abbrev main_v68 : Ref sig .tc := ⟨.hbm, 105, rfl⟩
abbrev main_cst_19 : Ref sig .tc := ⟨.hbm, 106, rfl⟩
abbrev main_v69 : Ref sig .tc := ⟨.hbm, 107, rfl⟩

abbrev nD : Nat := 1
abbrev τ : Topo := Topo.v7x

variable {F : FTy → Type} [FloatOps F]

class Facts₀ : Prop where
  shapeCasts_S64x256x32x32_S64x262144 : S64x256x32x32.ShapeCasts S64x262144
  bcast_S_S64x256 : S_.BroadcastsInDim S64x256 (![] : Fin 0 → Fin S64x256.rank)
  bcast_S64_S64x1_0 : S64.BroadcastsInDim S64x1 (![0] : Fin 1 → Fin S64x1.rank)
  bcast_S_S64x1 : S_.BroadcastsInDim S64x1 (![] : Fin 0 → Fin S64x1.rank)
  bcast_S_S64x262144 : S_.BroadcastsInDim S64x262144 (![] : Fin 0 → Fin S64x262144.rank)
  bcast_S64x1_S64x262144_0_1 : S64x1.BroadcastsInDim S64x262144 (![0, 1] : Fin 2 → Fin S64x262144.rank)
  bcast_S64x262144_S64x262144x1_0_1 : S64x262144.BroadcastsInDim S64x262144x1 (![0, 1] : Fin 2 → Fin S64x262144x1.rank)
  concatenates_S64x262144x1_S64x262144x1_S64x262144x2_d2 : Shape.Concatenates [S64x262144x1, S64x262144x1] S64x262144x2 2
  reducesTo_S64x256_S64_d1 : S64x256.ReducesTo [1] S64
  h_S_ : 0 < S_.numel
  bcast_S_S64 : S_.BroadcastsInDim S64 (![] : Fin 0 → Fin S64.rank)
  bcast_S64x1_S64x256_0_1 : S64x1.BroadcastsInDim S64x256 (![0, 1] : Fin 2 → Fin S64x256.rank)
  reducesTo_S64x256_S_d0_1 : S64x256.ReducesTo [0, 1] S_
  scatter_S64x256_S64x262144x2_S64x262144_n_01_01_2_wf : ScatterDims.WF S64x256 S64x262144x2 S64x262144 [] [0, 1] [0, 1] 2

variable [Facts₀]

def scatter_S64x256_S64x262144x2_S64x262144_n_01_01_2 : ScatterDims S64x256 S64x262144x2 S64x262144 where
  updateWindowDims := []
  insertedWindowDims := [0, 1]
  scatterDimsToOperandDims := [0, 1]
  indexVectorDim := 2
  wf := scatter_S64x256_S64x262144x2_S64x262144_n_01_01_2_wf

class Facts : Prop extends Facts₀ where

variable [Facts]
-- ==== Proof.HistSpec.lean ====
/-
  The mathematics both programs compute before their common tail: for a float array `x` of 64 rows by 262144
  entries, the HISTOGRAM over the 256 bins `0, 1, …, 255` — entry `(n, b)` is the number of positions `l` of row `n`
  whose value IS the real number `b`. Stated as one function of the whole array, index by index, over the extended
  reals (a count is a finite sum of ones and zeros). Beside it the RUNNING count over the first `len` positions of a
  row, which is what an accumulator swept along the row in blocks of 256 holds after each block, with the three facts
  the sweep needs: nothing counted before the first block, one block more adds that block's count, and the count
  over the whole row is the histogram.
-/
import Idealize.ShloMosaic.PureOps.Ideal
import Idealize.ShloMosaic.Lib.ValueIdx
import Mathlib.Algebra.BigOperators.Group.Finset.Basic
import Mathlib.Algebra.BigOperators.Fin

noncomputable section

open scoped BigOperators

namespace Cert.Hist

open Idealize.ShloMosaic Idealize.ShloMosaic.ValueIdx

/-- The flattened input: 64 rows of 262144 entries. -/
abbrev SX : Shape := ⟨2, ![64, 262144]⟩
/-- The histogram: 64 rows of 256 bins. -/
abbrev SH : Shape := ⟨2, ![64, 256]⟩

/-- One if `x` is the real number `q`, zero otherwise. -/
def ind (x : EReal) (q : ℕ) : EReal := if x = ((q : ℝ) : EReal) then 1 else 0

/-- Position `l` of row `n` counted for bin `q`; zero beyond the row's end. -/
def term (x : SX.Idx → EReal) (n : Fin 64) (q : ℕ) (l : ℕ) : EReal :=
  if h : l < 262144 then ind (x (ix2 n ⟨l, h⟩)) q else 0

/-- How many of the first `len` positions of row `n` hold the real number `q`. -/
def countTo (x : SX.Idx → EReal) (len : ℕ) (n : Fin 64) (q : ℕ) : EReal :=
  ∑ l ∈ Finset.range len, term x n q l

/-- The histogram of `x`: at `(n, b)`, how many positions of row `n` hold the real number `b`. -/
def hist (x : SX.Idx → EReal) : SH.Idx → EReal :=
  fun j => ∑ l : Fin 262144, ind (x (ix2 (j 0) l)) (j 1).val

theorem countTo_zero (x : SX.Idx → EReal) (n : Fin 64) (q : ℕ) : countTo x 0 n q = 0 := by
  unfold countTo; rw [Finset.range_zero, Finset.sum_empty]

/-- One block of 256 positions more: the count so far plus the count inside the block. -/
theorem countTo_add_block (x : SX.Idx → EReal) (a : ℕ) (ha : a + 256 ≤ 262144) (n : Fin 64) (q : ℕ) :
    countTo x (a + 256) n q
      = countTo x a n q + ∑ l' : Fin 256, ind (x (ix2 n ⟨a + l'.val, by have := l'.isLt; omega⟩)) q := by
  unfold countTo
  rw [Finset.sum_range_add]
  congr 1
  rw [Finset.sum_range (fun l => term x n q (a + l))]
  refine Finset.sum_congr rfl fun l' _ => ?_
  unfold term
  rw [dif_pos]

/-- The count over the whole row is the histogram's entry. -/
theorem countTo_full (x : SX.Idx → EReal) (j : SH.Idx) : countTo x 262144 (j 0) (j 1).val = hist x j := by
  unfold countTo hist
  rw [Finset.sum_range (fun l => term x (j 0) (j 1).val l)]
  refine Finset.sum_congr rfl fun l _ => ?_
  unfold term
  rw [dif_pos l.isLt]

end Cert.Hist

end
-- ==== Proof.Payload.lean ====
/-
  The kernel body's arithmetic at one index. The block `x` is 16 rows of 256 entries, the accumulator `acc` 16 rows
  of 256 bins. The body compares every entry of a row with every bin value `0 … 255` (the bin's number converted to a
  float), turns each comparison into one or zero, sums along the row, and adds the accumulator: at `(p, q)` the result
  is `acc (p, q)` plus the number of entries of row `p` that are the real number `q`. The reset stores zeros.
-/
import proofs.«158589_j60833916781214_1_alg».proof.Proof.HistSpec
import proofs.«158589_j60833916781214_1_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.HistPay

open Idealize.ShloMosaic Idealize.ShloMosaic.ValueIdx Cert.KernelIdeal Cert.KernelIdeal.Gen

/-- A `[16, 256]` block cast to `[16, 256, 1]` reads, at `(p, l, u)`, the block at `(p, l)`. -/
private theorem cast_col (x : FVec Ideal S16x256 .f32) (p : Fin 16) (l : Fin 256) (u : Fin 1) :
    shapeCast S16x256x1 x shapeCasts_S16x256_S16x256x1 (ix3 p l u) = x (ix2 p l) :=
  shapeCast_apply x _ _ _ (by
    have hu : u.val = 0 := by omega
    rw [Shape.rowMajor_val_two, Shape.rowMajor_val_three]
    show p.val * 256 + l.val = (p.val * 256 + l.val) * 1 + u.val
    omega)

/-- The column broadcast along a new last axis: at `(p, l, q)` it reads the column at `(p, l, 0)`. -/
private theorem bcast_col (v : FVec Ideal S16x256x1 .f32) (p : Fin 16) (l q : Fin 256) :
    broadcastTo S16x256x256 v broadcasts_S16x256x1_S16x256x256 (ix3 p l q) = v (ix3 p l (0 : Fin 1)) := by
  refine broadcastTo_apply v _ (ix3 p l q) (ix3 p l (0 : Fin 1)) fun ax => ?_
  match ax with
  | ⟨0, _⟩ => rfl
  | ⟨1, _⟩ => rfl
  | ⟨2, _⟩ => rfl

/-- The lane numbers along the last axis: at `(p, l, q)` the word `q`. -/
private theorem iota_lane (p : Fin 16) (l q : Fin 256) :
    iota .tc S16x256x256 32 [2] iota_S16x256x256_d2_w32 (ix3 p l q) = BitVec.ofNat 32 q.val :=
  iota_single_apply .tc S16x256x256 32 2 _ _

/-- The reduced index `(p, q)` with `l` put back on the middle axis is `(p, l, q)`. -/
private theorem lift_mid (p : Fin 16) (l q : Fin 256) :
    reduces_S16x256x256_S16x256.lift (ix2 p q) l = ix3 p l q := by
  funext ax
  match ax with
  | ⟨0, _⟩ => rfl
  | ⟨1, _⟩ => rfl
  | ⟨2, _⟩ => rfl

/-- A bin's number below 256, as a 32-bit word read signed, is that number. -/
private theorem toInt_bin (q : ℕ) (hq : q < 256) : (BitVec.ofNat 32 q).toInt = (q : ℤ) := by
  rw [BitVec.toInt_eq_toNat_of_lt (by rw [BitVec.toNat_ofNat]; omega), BitVec.toNat_ofNat]
  omega

/-- One comparison turned into a float: one when `a` is the real number `q`, zero otherwise. -/
private theorem cmp_to_ind (a : EReal) (q : ℕ) (hq : q < 256) :
    FloatOps.sitofp (F := Ideal) .f32
        ((FloatOps.cmpf (F := Ideal) (φ := .f32) .oeq a (FloatOps.sitofp (F := Ideal) .f32 (BitVec.ofNat 32 q))).setWidth 32)
      = Cert.Hist.ind a q := by
  show ((((BitVec.ofBool (decide (a = (((BitVec.ofNat 32 q).toInt : ℝ) : EReal)))).setWidth 32).toInt : ℝ) : EReal) = _
  rw [toInt_bin q hq, Int.cast_natCast]
  unfold Cert.Hist.ind
  by_cases h : a = ((q : ℝ) : EReal)
  · rw [if_pos h, decide_eq_true h]
    show (((1#32 : BitVec 32).toInt : ℝ) : EReal) = 1
    simp
  · rw [if_neg h, decide_eq_false h]
    show (((0#32 : BitVec 32).toInt : ℝ) : EReal) = 0
    simp

/-- The accumulating store's payload of the first call, at `(p, q)`. -/
theorem pay2_apply0 (x acc : Vec Ideal S16x256 .f32) (p : Fin 16) (q : Fin 256) :
    k0_pay2 (F := Ideal) x acc (ix2 p q) = acc (ix2 p q) + ∑ l : Fin 256, Cert.Hist.ind (x (ix2 p l)) q.val := by
  unfold k0_pay2
  rw [addf_apply, shapeCast_self]
  refine congrArg (acc (ix2 p q) + ·) ?_
  refine (Ideal.multiReduction_add_single _ _ reduces_S16x256x256_S16x256 _ _ (ix2 p q)).trans ?_
  refine Finset.sum_congr rfl fun (l : Fin 256) _ => ?_
  rw [lift_mid p l q, sitofp_apply, extui_apply, cmpf_apply, sitofp_apply, bcast_col, cast_col, shapeCast_self, iota_lane]
  exact cmp_to_ind _ _ q.isLt

/-- The reset's payload of the first call: zero everywhere. -/
theorem pay1_apply0 (j : S16x256.Idx) : k0_pay1 (F := Ideal) j = 0 := by
  unfold k0_pay1
  rw [broadcast_apply]
  exact Ideal.ofBits_zero_f32

/-- The same for the second call, whose body is the same text. -/
theorem pay2_apply1 (x acc : Vec Ideal S16x256 .f32) (p : Fin 16) (q : Fin 256) :
    k1_pay2 (F := Ideal) x acc (ix2 p q) = acc (ix2 p q) + ∑ l : Fin 256, Cert.Hist.ind (x (ix2 p l)) q.val :=
  pay2_apply0 x acc p q

theorem pay1_apply1 (j : S16x256.Idx) : k1_pay1 (F := Ideal) j = 0 :=
  pay1_apply0 j

end Cert.KernelIdeal.HistPay

end
-- ==== Proof.Region0.lean ====
/-
  What the first histogram call leaves in its result array, for ANY contents `V` of the buffers when the call is
  entered: the histogram of the call's input array. The grid is 4 row blocks (16 rows each) by 1024 steps along a
  row (256 entries each), point `t` being row block `t / 1024`, step `t % 1024`. The output block of a row block
  stays in its staging buffer along the whole row: it is zeroed at step 0, every step adds the counts of its 256
  entries, and it is written back after step 1023. So after point `t` the buffer holds, at `(p, q)`, the number of
  the first `256 * (t % 1024 + 1)` entries of row `16 * (t / 1024) + p` that are the real number `q` (by induction
  on the point); at the write-back that is the whole row's count, and the four written-back blocks tile the array.
-/
import proofs.«158589_j60833916781214_1_alg».proof.Proof.HistSpec
import proofs.«158589_j60833916781214_1_alg».proof.Proof.Payload
import proofs.«158589_j60833916781214_1_alg».proof.Proof.Gen.KernelIdeal.Frame
import Idealize.ShloMosaic.Lib.Pipeline.Value
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.HistRegion0

open Cert.KernelIdeal Cert.KernelIdeal.Gen Cert.Hist Cert.KernelIdeal.HistPay

variable (V : (c : Dev nD) → (b : Ref sig .tc) → Buf (Elt Ideal) ((c : Thread nD τ).loc b))

theorem hz : (![0, 0] : Fin 2 → Nat) = fun _ => 0 := funext fun a => by fin_cases a <;> rfl

/-- A step that does not reset: the buffer holding `xo`, the input block `x`, ends at the accumulating payload. -/
theorem out_B (c : Dev nD) (i : grid0.Coords) (a1 : Memref sig .tc .vmem S16x256 .f32) (h1 : a1.IsWhole)
    (a2 : Memref sig .tc .vmem S16x256 .f32) (h2 : a2.IsWhole) (hc : ¬cond0_0 i) (x xo : Vec Ideal S16x256 .f32) :
    out0_B_1 (F := Ideal) c i a1 h1 a2 h2 hc x xo = k0_pay2 x xo := by
  unfold out0_B_1
  rw [View.read_writes_eq_canon _ _ _ (cover0_B_1 c i a1 h1 a2 h2 hc x xo)]
  unfold kernelRun0_B
  dsimp only
  sl_unfold_words
  rw [View.canon_unit_zero hz]
  simp only [View.readAt_eq_ld, h1.read_unread, h2.read_unread, View.ld_unit_zero (S := S16x256) hz]

/-- A step that resets (step 0 of a row block): the zero block is stored, read back, and accumulated into. -/
theorem out_A (c : Dev nD) (i : grid0.Coords) (a1 : Memref sig .tc .vmem S16x256 .f32) (h1 : a1.IsWhole)
    (a2 : Memref sig .tc .vmem S16x256 .f32) (h2 : a2.IsWhole) (hc : cond0_0 i) (x : Vec Ideal S16x256 .f32) :
    out0_A_1 (F := Ideal) c i a1 h1 a2 h2 hc x = k0_pay2 x (k0_pay1 (F := Ideal)) := by
  unfold out0_A_1
  rw [View.read_writes_eq_canon _ _ _ (cover0_A_1 c i a1 h1 a2 h2 hc x)]
  unfold kernelRun0_A
  dsimp only
  sl_unfold_words
  rw [View.canon_cons_unit_zero (S := S16x256) hz, View.readCov_unit_zero (S := S16x256) _ hz]
  simp only [View.readAt_eq_ld, h1.read_unread, View.ld_unit_zero (S := S16x256) hz]

/-- The call's input array as the call finds it. -/
abbrev xarr (c : Dev nD) : SX.Idx → EReal := V c main_v0
/-- The input block of point `t`. -/
abbrev xblk (c : Dev nD) (t : Fin cfg0.N) : Vec Ideal S16x256 .f32 := iblk0 V c 0 t

/-- The printed index maps over the grid: the input's block is (row block, step), the output's (row block, 0). -/
theorem idx_facts : ∀ t : Fin cfg0.N, win0_0.index t (0 : Fin 2) = t.val / 1024 ∧ win0_0.index t (1 : Fin 2) = t.val % 1024
    ∧ win0_1.index t (0 : Fin 2) = t.val / 1024 ∧ win0_1.index t (1 : Fin 2) = 0 :=
  (by decide +kernel : ∀ t : Fin grid0.N, win0_0.index t (0 : Fin 2) = t.val / 1024 ∧ win0_0.index t (1 : Fin 2) = t.val % 1024
    ∧ win0_1.index t (0 : Fin 2) = t.val / 1024 ∧ win0_1.index t (1 : Fin 2) = 0)

/-- Row `p` of the row block that point `n` works on. -/
def rowOf (n : ℕ) (p : Fin 16) : Fin 64 := ⟨(16 * (n / 1024) + p.val) % 64, Nat.mod_lt _ (by decide)⟩

/-- Entry `(p, l)` of point `t`'s input block is entry `256 * (t % 1024) + l` of its row. -/
theorem xblk_apply (c : Dev nD) (t : Fin cfg0.N) (p : Fin 16) (l : Fin 256) (h : 256 * (t.val % 1024) + l.val < 262144) :
    xblk V c t (ix2 p l) = xarr V c (ix2 (rowOf t.val p) ⟨256 * (t.val % 1024) + l.val, h⟩) := by
  have hN : t.val < 4096 := lt_of_lt_of_eq t.isLt (show cfg0.N = 4096 from N_0)
  obtain ⟨e0, e1, -, -⟩ := idx_facts t
  unfold xblk iblk0
  rw [View.read_apply]
  show V c main_v0 _ = V c main_v0 _
  congr 1
  funext a
  apply Fin.ext
  match a with
  | ⟨0, _⟩ =>
    show win0_0.index t (0 : Fin 2) * 16 + 1 * p.val = (16 * (t.val / 1024) + p.val) % 64
    have hp : p.val < 16 := p.isLt
    omega
  | ⟨1, _⟩ =>
    show win0_0.index t (1 : Fin 2) * 256 + 1 * l.val = 256 * (t.val % 1024) + l.val
    omega

/-- One step of the sweep, as arithmetic: accumulating a block that is the next 256 entries of row `r` onto the count
    of its first `a` entries gives the count of its first `a + 256`. -/
theorem step (x : SX.Idx → EReal) (blk acc : Vec Ideal S16x256 .f32) (r : Fin 64) (a : ℕ) (ha : a + 256 ≤ 262144)
    (p : Fin 16) (q : Fin 256)
    (hblk : ∀ l : Fin 256, blk (ix2 p l) = x (ix2 r ⟨a + l.val, by have := l.isLt; omega⟩))
    (hacc : acc (ix2 p q) = countTo x a r q.val) :
    k0_pay2 (F := Ideal) blk acc (ix2 p q) = countTo x (a + 256) r q.val := by
  rw [pay2_apply0, countTo_add_block x a ha, hacc]
  congr 1
  exact Finset.sum_congr rfl fun l _ => by rw [hblk l]

/-- THE INVARIANT of the sweep: after point `n` the output's staging buffer holds the running counts of its row block. -/
theorem outsAt_eq (c : Dev nD) : ∀ (n : ℕ) (h : n < cfg0.N) (p : Fin 16) (q : Fin 256),
    outsAt0 V c n h (ix2 p q) = countTo (xarr V c) (256 * (n % 1024 + 1)) (rowOf n p) q.val
  | 0, h, p, q => by
    rw [outsAt0_A V c ⟨0, h⟩ rfl, out_A]
    refine (step (xarr V c) _ _ (rowOf 0 p) 0 (by omega) p q (fun l => ?_) ?_).trans ?_
    · exact (xblk_apply V c ⟨0, h⟩ p l (by have := l.isLt; simp; omega)).trans (by congr 2 <;> simp)
    · rw [pay1_apply0, countTo_zero]
    · rfl
  | n + 1, h, p, q => by
    have hN : n + 1 < 4096 := lt_of_lt_of_eq h (show cfg0.N = 4096 from N_0)
    by_cases h0 : (n + 1) % 1024 = 0
    · rw [outsAt0_A V c ⟨n + 1, h⟩ h0, out_A]
      refine (step (xarr V c) _ _ (rowOf (n + 1) p) 0 (by omega) p q (fun l => ?_) ?_).trans ?_
      · refine (xblk_apply V c ⟨n + 1, h⟩ p l (by have := l.isLt; dsimp only; omega)).trans ?_
        congr 2; apply Fin.ext; dsimp only; omega
      · rw [pay1_apply0, countTo_zero]
      · congr 1; omega
    · rw [outsAt0_B V c ⟨n + 1, h⟩ h0, out_B]
      have hr : rowOf n p = rowOf (n + 1) p := by unfold rowOf; apply Fin.ext; dsimp only; omega
      refine (step (xarr V c) _ _ (rowOf (n + 1) p) (256 * ((n + 1) % 1024)) (by omega) p q (fun l => ?_) ?_).trans ?_
      · exact xblk_apply V c ⟨n + 1, h⟩ p l (by have := l.isLt; dsimp only; omega)
      · show outsAt0 V c n _ (ix2 p q) = _
        rw [outsAt_eq c n (Nat.lt_of_succ_lt h) p q, hr]
        congr 1; omega
      · congr 1

/-- An index of the result array is in point `t`'s output block iff each coordinate is in the block's range. -/
theorem mem_blk (t : Fin cfg0.N) (i : S64x256.Idx) :
    i ∈ ((cfg0.win 1).blk t).view.set ↔ ∀ a : Fin 2, win0_1.index t a * S16x256.size a ≤ (i a).val ∧ (i a).val < win0_1.index t a * S16x256.size a + S16x256.size a := by
  show i ∈ ((View.whole main_v1).slice (win0_1.rect t)).set ↔ _
  rw [View.set_slice_whole, Rect.mem_set_unit]
  exact Iff.rfl

/-- WHAT A WRITE-BACK WRITES: after step 1023 of a row block, that block of the histogram. -/
theorem flushed_eq (c : Dev nD) (t : Fin cfg0.N) (hf : (cfg0.win 1).flush t = true) :
    (dat0 V c).flushed 1 t = ((cfg0.win 1).blk t).view.read (Elt Ideal) (hist (xarr V c)) := by
  have hN : t.val < 4096 := lt_of_lt_of_eq t.isLt (show cfg0.N = 4096 from N_0)
  have h3 : t.val % 1024 = 1023 := (flush0_1 t).mp hf
  obtain ⟨-, -, e2, e3⟩ := idx_facts t
  show (cfg0.win 1).cut (grid0.coords t) ((dat0 V c).after 1 t) = _
  rw [after0_1]
  funext j
  obtain ⟨p, q, rfl⟩ : ∃ (p : Fin 16) (q : Fin 256), j = ix2 p q := ⟨j 0, j 1, eq_ix2 j⟩
  rw [View.read_apply]
  refine (outsAt_eq V c t.val t.isLt p q).trans ?_
  rw [show 256 * (t.val % 1024 + 1) = 262144 by omega]
  refine (countTo_full (xarr V c) (ix2 (rowOf t.val p) q)).trans ?_
  congr 1
  funext a
  apply Fin.ext
  match a with
  | ⟨0, _⟩ =>
    show (16 * (t.val / 1024) + p.val) % 64 = win0_1.index t (0 : Fin 2) * 16 + 1 * p.val
    have hp : p.val < 16 := p.isLt
    omega
  | ⟨1, _⟩ =>
    show q.val = win0_1.index t (1 : Fin 2) * 256 + 1 * q.val
    omega

/-- THE RESULT ARRAY after the call: the histogram of the call's input array. -/
theorem final (c : Dev nD) : (dat0 V c).arrAt 1 cfg0.N = hist (xarr V c) :=
  (dat0 V c).arrAt_eq_of_cover 1 (hist (xarr V c)) (flushed_eq V c) fun i => by
    have hi0 : (i 0).val < 64 := (i 0).isLt
    have hi1 : (i 1).val < 256 := (i 1).isLt
    have hlt : 1024 * ((i 0).val / 16) + 1023 < cfg0.N := by rw [show cfg0.N = 4096 from N_0]; omega
    refine ⟨⟨1024 * ((i 0).val / 16) + 1023, hlt⟩, (flush0_1 _).mpr (by dsimp only; omega), ?_⟩
    obtain ⟨-, -, e2, e3⟩ := idx_facts ⟨1024 * ((i 0).val / 16) + 1023, hlt⟩
    rw [mem_blk]
    intro a
    match a with
    | ⟨0, _⟩ =>
      show win0_1.index _ (0 : Fin 2) * 16 ≤ (i 0).val ∧ (i 0).val < win0_1.index _ (0 : Fin 2) * 16 + 16
      rw [e2]; dsimp only; omega
    | ⟨1, _⟩ =>
      show win0_1.index _ (1 : Fin 2) * 256 ≤ (i 1).val ∧ (i 1).val < win0_1.index _ (1 : Fin 2) * 256 + 256
      rw [e3]; omega

end Cert.KernelIdeal.HistRegion0

end
-- ==== Proof.Region1.lean ====
/-
  What the second histogram call leaves in its result array, for ANY contents `V` of the buffers when the call is
  entered: the histogram of the call's input array. The grid is 4 row blocks (16 rows each) by 1024 steps along a
  row (256 entries each), point `t` being row block `t / 1024`, step `t % 1024`. The output block of a row block
  stays in its staging buffer along the whole row: it is zeroed at step 0, every step adds the counts of its 256
  entries, and it is written back after step 1023. So after point `t` the buffer holds, at `(p, q)`, the number of
  the first `256 * (t % 1024 + 1)` entries of row `16 * (t / 1024) + p` that are the real number `q` (by induction
  on the point); at the write-back that is the whole row's count, and the four written-back blocks tile the array.
-/
import proofs.«158589_j60833916781214_1_alg».proof.Proof.HistSpec
import proofs.«158589_j60833916781214_1_alg».proof.Proof.Payload
import proofs.«158589_j60833916781214_1_alg».proof.Proof.Gen.KernelIdeal.Frame
import Idealize.ShloMosaic.Lib.Pipeline.Value
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.HistRegion1

open Cert.KernelIdeal Cert.KernelIdeal.Gen Cert.Hist Cert.KernelIdeal.HistPay

variable (V : (c : Dev nD) → (b : Ref sig .tc) → Buf (Elt Ideal) ((c : Thread nD τ).loc b))

theorem hz : (![0, 0] : Fin 2 → Nat) = fun _ => 0 := funext fun a => by fin_cases a <;> rfl

/-- A step that does not reset: the buffer holding `xo`, the input block `x`, ends at the accumulating payload. -/
theorem out_B (c : Dev nD) (i : grid1.Coords) (a1 : Memref sig .tc .vmem S16x256 .f32) (h1 : a1.IsWhole)
    (a2 : Memref sig .tc .vmem S16x256 .f32) (h2 : a2.IsWhole) (hc : ¬cond1_0 i) (x xo : Vec Ideal S16x256 .f32) :
    out1_B_1 (F := Ideal) c i a1 h1 a2 h2 hc x xo = k1_pay2 x xo := by
  unfold out1_B_1
  rw [View.read_writes_eq_canon _ _ _ (cover1_B_1 c i a1 h1 a2 h2 hc x xo)]
  unfold kernelRun1_B
  dsimp only
  sl_unfold_words
  rw [View.canon_unit_zero hz]
  simp only [View.readAt_eq_ld, h1.read_unread, h2.read_unread, View.ld_unit_zero (S := S16x256) hz]

/-- A step that resets (step 0 of a row block): the zero block is stored, read back, and accumulated into. -/
theorem out_A (c : Dev nD) (i : grid1.Coords) (a1 : Memref sig .tc .vmem S16x256 .f32) (h1 : a1.IsWhole)
    (a2 : Memref sig .tc .vmem S16x256 .f32) (h2 : a2.IsWhole) (hc : cond1_0 i) (x : Vec Ideal S16x256 .f32) :
    out1_A_1 (F := Ideal) c i a1 h1 a2 h2 hc x = k1_pay2 x (k1_pay1 (F := Ideal)) := by
  unfold out1_A_1
  rw [View.read_writes_eq_canon _ _ _ (cover1_A_1 c i a1 h1 a2 h2 hc x)]
  unfold kernelRun1_A
  dsimp only
  sl_unfold_words
  rw [View.canon_cons_unit_zero (S := S16x256) hz, View.readCov_unit_zero (S := S16x256) _ hz]
  simp only [View.readAt_eq_ld, h1.read_unread, View.ld_unit_zero (S := S16x256) hz]

/-- The call's input array as the call finds it. -/
abbrev xarr (c : Dev nD) : SX.Idx → EReal := V c main_v5
/-- The input block of point `t`. -/
abbrev xblk (c : Dev nD) (t : Fin cfg1.N) : Vec Ideal S16x256 .f32 := iblk1 V c 0 t

/-- The printed index maps over the grid: the input's block is (row block, step), the output's (row block, 0). -/
theorem idx_facts : ∀ t : Fin cfg1.N, win1_0.index t (0 : Fin 2) = t.val / 1024 ∧ win1_0.index t (1 : Fin 2) = t.val % 1024
    ∧ win1_1.index t (0 : Fin 2) = t.val / 1024 ∧ win1_1.index t (1 : Fin 2) = 0 :=
  (by decide +kernel : ∀ t : Fin grid1.N, win1_0.index t (0 : Fin 2) = t.val / 1024 ∧ win1_0.index t (1 : Fin 2) = t.val % 1024
    ∧ win1_1.index t (0 : Fin 2) = t.val / 1024 ∧ win1_1.index t (1 : Fin 2) = 0)

/-- Row `p` of the row block that point `n` works on. -/
def rowOf (n : ℕ) (p : Fin 16) : Fin 64 := ⟨(16 * (n / 1024) + p.val) % 64, Nat.mod_lt _ (by decide)⟩

/-- Entry `(p, l)` of point `t`'s input block is entry `256 * (t % 1024) + l` of its row. -/
theorem xblk_apply (c : Dev nD) (t : Fin cfg1.N) (p : Fin 16) (l : Fin 256) (h : 256 * (t.val % 1024) + l.val < 262144) :
    xblk V c t (ix2 p l) = xarr V c (ix2 (rowOf t.val p) ⟨256 * (t.val % 1024) + l.val, h⟩) := by
  have hN : t.val < 4096 := lt_of_lt_of_eq t.isLt (show cfg1.N = 4096 from N_1)
  obtain ⟨e0, e1, -, -⟩ := idx_facts t
  unfold xblk iblk1
  rw [View.read_apply]
  show V c main_v5 _ = V c main_v5 _
  congr 1
  funext a
  apply Fin.ext
  match a with
  | ⟨0, _⟩ =>
    show win1_0.index t (0 : Fin 2) * 16 + 1 * p.val = (16 * (t.val / 1024) + p.val) % 64
    have hp : p.val < 16 := p.isLt
    omega
  | ⟨1, _⟩ =>
    show win1_0.index t (1 : Fin 2) * 256 + 1 * l.val = 256 * (t.val % 1024) + l.val
    omega

/-- One step of the sweep, as arithmetic: accumulating a block that is the next 256 entries of row `r` onto the count
    of its first `a` entries gives the count of its first `a + 256`. -/
theorem step (x : SX.Idx → EReal) (blk acc : Vec Ideal S16x256 .f32) (r : Fin 64) (a : ℕ) (ha : a + 256 ≤ 262144)
    (p : Fin 16) (q : Fin 256)
    (hblk : ∀ l : Fin 256, blk (ix2 p l) = x (ix2 r ⟨a + l.val, by have := l.isLt; omega⟩))
    (hacc : acc (ix2 p q) = countTo x a r q.val) :
    k1_pay2 (F := Ideal) blk acc (ix2 p q) = countTo x (a + 256) r q.val := by
  rw [pay2_apply1, countTo_add_block x a ha, hacc]
  congr 1
  exact Finset.sum_congr rfl fun l _ => by rw [hblk l]

/-- THE INVARIANT of the sweep: after point `n` the output's staging buffer holds the running counts of its row block. -/
theorem outsAt_eq (c : Dev nD) : ∀ (n : ℕ) (h : n < cfg1.N) (p : Fin 16) (q : Fin 256),
    outsAt1 V c n h (ix2 p q) = countTo (xarr V c) (256 * (n % 1024 + 1)) (rowOf n p) q.val
  | 0, h, p, q => by
    rw [outsAt1_A V c ⟨0, h⟩ rfl, out_A]
    refine (step (xarr V c) _ _ (rowOf 0 p) 0 (by omega) p q (fun l => ?_) ?_).trans ?_
    · exact (xblk_apply V c ⟨0, h⟩ p l (by have := l.isLt; simp; omega)).trans (by congr 2 <;> simp)
    · rw [pay1_apply1, countTo_zero]
    · rfl
  | n + 1, h, p, q => by
    have hN : n + 1 < 4096 := lt_of_lt_of_eq h (show cfg1.N = 4096 from N_1)
    by_cases h0 : (n + 1) % 1024 = 0
    · rw [outsAt1_A V c ⟨n + 1, h⟩ h0, out_A]
      refine (step (xarr V c) _ _ (rowOf (n + 1) p) 0 (by omega) p q (fun l => ?_) ?_).trans ?_
      · refine (xblk_apply V c ⟨n + 1, h⟩ p l (by have := l.isLt; dsimp only; omega)).trans ?_
        congr 2; apply Fin.ext; dsimp only; omega
      · rw [pay1_apply1, countTo_zero]
      · congr 1; omega
    · rw [outsAt1_B V c ⟨n + 1, h⟩ h0, out_B]
      have hr : rowOf n p = rowOf (n + 1) p := by unfold rowOf; apply Fin.ext; dsimp only; omega
      refine (step (xarr V c) _ _ (rowOf (n + 1) p) (256 * ((n + 1) % 1024)) (by omega) p q (fun l => ?_) ?_).trans ?_
      · exact xblk_apply V c ⟨n + 1, h⟩ p l (by have := l.isLt; dsimp only; omega)
      · show outsAt1 V c n _ (ix2 p q) = _
        rw [outsAt_eq c n (Nat.lt_of_succ_lt h) p q, hr]
        congr 1; omega
      · congr 1

/-- An index of the result array is in point `t`'s output block iff each coordinate is in the block's range. -/
theorem mem_blk (t : Fin cfg1.N) (i : S64x256.Idx) :
    i ∈ ((cfg1.win 1).blk t).view.set ↔ ∀ a : Fin 2, win1_1.index t a * S16x256.size a ≤ (i a).val ∧ (i a).val < win1_1.index t a * S16x256.size a + S16x256.size a := by
  show i ∈ ((View.whole main_v6).slice (win1_1.rect t)).set ↔ _
  rw [View.set_slice_whole, Rect.mem_set_unit]
  exact Iff.rfl

/-- WHAT A WRITE-BACK WRITES: after step 1023 of a row block, that block of the histogram. -/
theorem flushed_eq (c : Dev nD) (t : Fin cfg1.N) (hf : (cfg1.win 1).flush t = true) :
    (dat1 V c).flushed 1 t = ((cfg1.win 1).blk t).view.read (Elt Ideal) (hist (xarr V c)) := by
  have hN : t.val < 4096 := lt_of_lt_of_eq t.isLt (show cfg1.N = 4096 from N_1)
  have h3 : t.val % 1024 = 1023 := (flush1_1 t).mp hf
  obtain ⟨-, -, e2, e3⟩ := idx_facts t
  show (cfg1.win 1).cut (grid1.coords t) ((dat1 V c).after 1 t) = _
  rw [after1_1]
  funext j
  obtain ⟨p, q, rfl⟩ : ∃ (p : Fin 16) (q : Fin 256), j = ix2 p q := ⟨j 0, j 1, eq_ix2 j⟩
  rw [View.read_apply]
  refine (outsAt_eq V c t.val t.isLt p q).trans ?_
  rw [show 256 * (t.val % 1024 + 1) = 262144 by omega]
  refine (countTo_full (xarr V c) (ix2 (rowOf t.val p) q)).trans ?_
  congr 1
  funext a
  apply Fin.ext
  match a with
  | ⟨0, _⟩ =>
    show (16 * (t.val / 1024) + p.val) % 64 = win1_1.index t (0 : Fin 2) * 16 + 1 * p.val
    have hp : p.val < 16 := p.isLt
    omega
  | ⟨1, _⟩ =>
    show q.val = win1_1.index t (1 : Fin 2) * 256 + 1 * q.val
    omega

/-- THE RESULT ARRAY after the call: the histogram of the call's input array. -/
theorem final (c : Dev nD) : (dat1 V c).arrAt 1 cfg1.N = hist (xarr V c) :=
  (dat1 V c).arrAt_eq_of_cover 1 (hist (xarr V c)) (flushed_eq V c) fun i => by
    have hi0 : (i 0).val < 64 := (i 0).isLt
    have hi1 : (i 1).val < 256 := (i 1).isLt
    have hlt : 1024 * ((i 0).val / 16) + 1023 < cfg1.N := by rw [show cfg1.N = 4096 from N_1]; omega
    refine ⟨⟨1024 * ((i 0).val / 16) + 1023, hlt⟩, (flush1_1 _).mpr (by dsimp only; omega), ?_⟩
    obtain ⟨-, -, e2, e3⟩ := idx_facts ⟨1024 * ((i 0).val / 16) + 1023, hlt⟩
    rw [mem_blk]
    intro a
    match a with
    | ⟨0, _⟩ =>
      show win1_1.index _ (0 : Fin 2) * 16 ≤ (i 0).val ∧ (i 0).val < win1_1.index _ (0 : Fin 2) * 16 + 16
      rw [e2]; dsimp only; omega
    | ⟨1, _⟩ =>
      show win1_1.index _ (1 : Fin 2) * 256 ≤ (i 1).val ∧ (i 1).val < win1_1.index _ (1 : Fin 2) * 256 + 256
      rw [e3]; omega

end Cert.KernelIdeal.HistRegion1

end
-- ==== Proof.Tail.lean ====
/-
  What both programs do with the two histograms `hs` (of the first input) and `ht` (of the second), as ONE function:
  `ps = log (hs + ε)`, `pt = log (ht + ε)`; the log-softmax `ls` of `ps / 4` along the bins (subtract the row maximum,
  then the logarithm of the row sum of exponentials); the softmax `p` of `pt / 4` along the bins (the same maximum
  shift, exponentials over their row sum); the sum over all rows and bins of `p * (log p - ls)`; times 16, over 64.
  The two programs are compared by the values going INTO this function; it is never opened.
-/
import Idealize.ShloMosaic.PureOps
import Idealize.ShloMosaic.Lib.StableHlo

noncomputable section

namespace Cert.Hist

open Idealize.ShloMosaic

abbrev T0 : Shape := ⟨0, ![]⟩
abbrev T64 : Shape := ⟨1, ![64]⟩
abbrev T64x1 : Shape := ⟨2, ![64, 1]⟩
abbrev T64x256 : Shape := ⟨2, ![64, 256]⟩

theorem bc_0_64x256 : T0.BroadcastsInDim T64x256 (![] : Fin 0 → Fin T64x256.rank) := by decide
theorem bc_0_64 : T0.BroadcastsInDim T64 (![] : Fin 0 → Fin T64.rank) := by decide
theorem bc_64_64x1 : T64.BroadcastsInDim T64x1 (![0] : Fin 1 → Fin T64x1.rank) := by decide
theorem bc_64x1_64x256 : T64x1.BroadcastsInDim T64x256 (![0, 1] : Fin 2 → Fin T64x256.rank) := by decide
theorem red_rows : T64x256.ReducesTo [1] T64 := by decide
theorem red_all : T64x256.ReducesTo [0, 1] T0 := by decide
theorem pos_0 : 0 < T0.numel := by decide

variable {F : FTy → Type} [FloatOps F]

/-- `log (h + ε) / 4`, entry by entry. -/
def logits (h : FVec F T64x256 .f32) : FVec F T64x256 .f32 :=
  Host.divf (Host.log (addf h (broadcastInDim T64x256 ![] bc_0_64x256 (constant T0 .f32 0x322BCC77#32))))
    (broadcastInDim T64x256 ![] bc_0_64x256 (constant T0 .f32 0x40800000#32))

/-- A row's entries minus the row's maximum. -/
def shifted (z : FVec F T64x256 .f32) : FVec F T64x256 .f32 :=
  subf z (broadcastInDim T64x256 ![0, 1] bc_64x1_64x256 (broadcastInDim T64x1 ![0] bc_64_64x1
    (maximumf (broadcastInDim T64 ![] bc_0_64 (constant T0 .f32 0xFF800000#32))
      (Host.reduce FloatOps.maximumf z (constant T0 .f32 0xFF800000#32) red_rows pos_0))))

/-- The row sums of a block, repeated along the bins. -/
def rowSums (e : FVec F T64x256 .f32) : FVec F T64x1 .f32 :=
  broadcastInDim T64x1 ![0] bc_64_64x1 (Host.reduceAdd e (constant T0 .f32 0x00000000#32) red_rows pos_0)

/-- The log-softmax along the bins. -/
def logSoftmax (z : FVec F T64x256 .f32) : FVec F T64x256 .f32 :=
  subf (shifted z) (broadcastInDim T64x256 ![0, 1] bc_64x1_64x256 (Host.log (rowSums (Host.exp (shifted z)))))

/-- The softmax along the bins. -/
def softmax (z : FVec F T64x256 .f32) : FVec F T64x256 .f32 :=
  Host.divf (Host.exp (shifted z)) (broadcastInDim T64x256 ![0, 1] bc_64x1_64x256 (rowSums (Host.exp (shifted z))))

/-- The loss from the two histograms. -/
def tail (hs ht : FVec F T64x256 .f32) : FVec F T0 .f32 :=
  Host.divf (mulf (Host.reduceAdd
      (mulf (softmax (logits ht)) (subf (Host.log (softmax (logits ht))) (logSoftmax (logits hs))))
      (constant T0 .f32 0x00000000#32) red_all pos_0)
    (constant T0 .f32 0x41800000#32)) (constant T0 .f32 0x42800000#32)

end Cert.Hist

end
-- ==== Proof.KernelValue.lean ====
/-
  The kernel program's result, read back through its run: the two histogram calls leave the histograms of the two
  flattened inputs (each call's result array, for whatever the buffers held when it was entered), the host operations
  between and after them are the common tail, and nothing between a value's definition and its use overwrites it.
-/
import proofs.«158589_j60833916781214_1_alg».proof.Proof.RunValue
import proofs.«158589_j60833916781214_1_alg».proof.Proof.Region0
import proofs.«158589_j60833916781214_1_alg».proof.Proof.Region1
import proofs.«158589_j60833916781214_1_alg».proof.Proof.Tail
import Idealize.ShloMosaic.Lib.StableHlo.Run

set_option maxRecDepth 16384

noncomputable section

open Idealize.ShloMosaic Idealize.ShloMosaic.TcCoe Idealize.SL.Sem Idealize.ShloMosaic.ValueIdx

namespace Cert.KernelIdeal.HistValue

open Cert.KernelIdeal Cert.KernelIdeal.Gen Cert.Hist

section Structure

variable {F : FTy → Type} [FloatOps F]
variable (m : (ℓ : Loc nD τ sig) → Buf (Elt F) ℓ) (ρ : Dev nD → PrngReg)

/-- The first call finds the first input, flattened. -/
theorem entry0 (c : Dev nD) :
    V1 m ρ c main_v0 = shapeCast S64x262144 (m ((c : Thread nD τ).loc main_arg0)) shapeCasts_S64x256x32x32_S64x262144 := by
  show StableHlo.after hostOps0 (W0 m ρ c) (Proc.devRef .tc main_v0) = _
  after_results
  rfl

/-- Between the calls: the logarithm of the first call's result plus ε. -/
theorem logp0 (c : Dev nD) : W3 m ρ c (Proc.devRef .tc main_v4)
    = Host.log (addf (W2 m ρ c (Proc.devRef .tc main_v1)) (broadcastInDim S64x256 ![] bcast_S_S64x256 (constant S_ .f32 0x322BCC77#32))) := by
  show StableHlo.after hostOps1 (W2 m ρ c) (Proc.devRef .tc main_v4) = _
  after_results

/-- The second call finds the second input, flattened: the first call and the first host operation leave that
    argument as launched. -/
theorem entry1 (c : Dev nD) :
    V3 m ρ c main_v5 = shapeCast S64x262144 (m ((c : Thread nD τ).loc main_arg1)) shapeCasts_S64x256x32x32_S64x262144 := by
  show StableHlo.after hostOps1 (W2 m ρ c) (Proc.devRef .tc main_v5) = _
  after_results
  rw [W2_of_ne m ρ c main_arg1 (by decide)]
  show shapeCast _ (StableHlo.after hostOps0 (W0 m ρ c) (Proc.devRef .tc main_arg1)) _ = _
  after_results
  rfl

/-- The second call leaves the first logarithm where it was. -/
theorem kept_logp0 (c : Dev nD) : W4 m ρ c (Proc.devRef .tc main_v4) = W3 m ρ c (Proc.devRef .tc main_v4) :=
  W4_of_ne m ρ c main_v4 (by decide)

set_option maxHeartbeats 4000000 in
/-- After the second call: the host operations are the common tail of the first histogram `hs` (whose logarithm
    plus ε is already in `main_v4`) and the second call's result. -/
theorem result_of (c : Dev nD) (hs : FVec F T64x256 .f32)
    (h4 : W4 m ρ c (Proc.devRef .tc main_v4)
      = Host.log (addf hs (broadcastInDim T64x256 ![] bc_0_64x256 (constant T0 .f32 0x322BCC77#32)))) :
    W7 m ρ c (Proc.devRef .tc main_v31) = tail hs (W4 m ρ c (Proc.devRef .tc main_v6)) := by
  show StableHlo.after hostOps2_2 (StableHlo.after hostOps2_1 (StableHlo.after hostOps2 (W4 m ρ c))) (Proc.devRef .tc main_v31) = _
  after_results
  simp only [StableHlo.TRef.ofBuf, StableHlo.TRef.toBuf, cast_eq]
  rw [h4]
  rfl

end Structure

variable (m : (ℓ : Loc nD τ sig) → Buf (Elt Ideal) ℓ) (ρ : Dev nD → PrngReg)

/-- An input, flattened to 64 rows. -/
abbrev flat (x : S64x256x32x32.Idx → EReal) : SX.Idx → EReal := shapeCast S64x262144 x shapeCasts_S64x256x32x32_S64x262144

/-- The first call's result array: the histogram of the first input. -/
theorem hist0 (c : Dev nD) : W2 m ρ c (Proc.devRef .tc main_v1) = hist (flat (m ((c : Thread nD τ).loc main_arg0))) := by
  refine (W2_arr m ρ c 1).trans ?_
  rw [Cert.KernelIdeal.HistRegion0.final (V1 m ρ) c]
  show hist (V1 m ρ c main_v0) = _
  rw [entry0 m ρ c]

/-- The second call's result array: the histogram of the second input. -/
theorem hist1 (c : Dev nD) : W4 m ρ c (Proc.devRef .tc main_v6) = hist (flat (m ((c : Thread nD τ).loc main_arg1))) := by
  refine (W4_arr m ρ c 1).trans ?_
  rw [Cert.KernelIdeal.HistRegion1.final (V3 m ρ) c]
  show hist (V3 m ρ c main_v5) = _
  rw [entry1 m ρ c]

/-- THE RESULT the run leaves in `main_v31`: the common tail of the two inputs' histograms. -/
theorem result (c : Dev nD) : W7 m ρ c (Proc.devRef .tc main_v31)
    = tail (F := Ideal) (hist (flat (m ((c : Thread nD τ).loc main_arg0)))) (hist (flat (m ((c : Thread nD τ).loc main_arg1)))) := by
  rw [result_of m ρ c (hist (flat (m ((c : Thread nD τ).loc main_arg0)))) (by
    rw [kept_logp0 m ρ c, logp0 m ρ c, hist0 m ρ c]), hist1 m ρ c]

/-- The run, read: the result at the tail of the two histograms, the arguments unchanged. -/
theorem run : θ_run defs (onTc (τ := τ) (main (F := Ideal))) ⟨m, fun _ => 0, ρ⟩ (fun r => ∀ c : Dev nD,
      r.2.mem ((c.tc : Thread nD τ).loc main_v31)
        = tail (F := Ideal) (hist (flat (m ((c : Thread nD τ).loc main_arg0)))) (hist (flat (m ((c : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result m ρ c), (h c).2⟩) (Cert.KernelIdeal.GenP.run_result m ρ)

end Cert.KernelIdeal.HistValue

end
-- ==== Proof.ScatterHist.lean ====
/-
  The reference's histogram: a scatter-add of ones into a zero array of 64 rows by 256 bins, update `(n, l)` landing
  at row `n` and at the bin its index word names. When every entry of `x` is a natural number `k` and the index
  word of `(n, l)` is `min k (2^31 - 1)` read signed (the conversion to a 32-bit integer, which saturates), the update
  lands on bin `b < 256` exactly when `x (n, l) = b`, and lands nowhere when `k ≥ 256`: so the scatter-add IS the
  histogram of `x`.
-/
import proofs.«158589_j60833916781214_1_alg».proof.Proof.HistSpec
import Idealize.ShloMosaic.PureOps.Ideal
import Idealize.ShloMosaic.PureOps.Contract
import Idealize.ShloMosaic.Lib.ValueIdx

noncomputable section

open scoped BigOperators

namespace Cert.Hist

open Idealize.ShloMosaic Idealize.ShloMosaic.ValueIdx

/-- The scatter indices: per update `(n, l)` a pair (row, bin). -/
abbrev SI : Shape := ⟨3, ![64, 262144, 2]⟩

/-- The scatter's dimension numbers: no window axes, both operand axes named by the index pair. -/
def histDims : ScatterDims SH SI SX where
  updateWindowDims := []
  insertedWindowDims := [0, 1]
  scatterDimsToOperandDims := [0, 1]
  indexVectorDim := 2

/-- The scatter-indices position update `j` reads component `c` of its start index at: `j`'s two coordinates, then `c`. -/
private theorem siIdx_eq (j : SX.Idx) (c : Fin 2) : histDims.siIdx j c = ix3 (j 0) (j 1) c := by
  funext b
  match b with
  | ⟨0, _⟩ => rfl
  | ⟨1, _⟩ => rfl
  | ⟨2, _⟩ => rfl

/-- Both operand axes are inserted, so the window coordinate is zero on each. -/
private theorem window_eq (j : SX.Idx) (a : Fin 2) : histDims.window j a = 0 := by
  have h : a ∉ histDims.sKept := by
    have : histDims.sKept = [] := by decide
    rw [this]; exact List.not_mem_nil
  unfold ScatterDims.window
  rw [dif_neg h]

/-- The start on operand axis 0 (the row) is the first word of the update's index pair, read signed. -/
private theorem start0 (j : SX.Idx) (idx : IVec SI 32) :
    histDims.start j idx (0 : Fin 2) = (idx (ix3 (j 0) (j 1) (0 : Fin 2))).toInt := by
  have h : (0 : Fin 2) ∈ histDims.scatterDimsToOperandDims := by decide
  unfold ScatterDims.start
  rw [dif_pos h]
  exact congrArg (fun v => (idx v).toInt) (siIdx_eq j (0 : Fin 2))

/-- The start on operand axis 1 (the bin) is the second word of the update's index pair, read signed. -/
private theorem start1 (j : SX.Idx) (idx : IVec SI 32) :
    histDims.start j idx (1 : Fin 2) = (idx (ix3 (j 0) (j 1) (1 : Fin 2))).toInt := by
  have h : (1 : Fin 2) ∈ histDims.scatterDimsToOperandDims := by decide
  unfold ScatterDims.start
  rw [dif_pos h]
  exact congrArg (fun v => (idx v).toInt) (siIdx_eq j (1 : Fin 2))

/-- Update `j` lands at `i` exactly when its index pair, read signed, IS `i`'s pair of coordinates: a pair in range
    is the result index, and a pair out of range (negative, or past 64 rows or 256 bins) lands nowhere, while `i`'s
    coordinates are in range. -/
private theorem resultIdx_iff (j : SX.Idx) (idx : IVec SI 32) (i : SH.Idx) :
    histDims.resultIdx? j idx = some i ↔
      (idx (ix3 (j 0) (j 1) (0 : Fin 2))).toInt = ((i 0).val : Int) ∧
      (idx (ix3 (j 0) (j 1) (1 : Fin 2))).toInt = ((i 1).val : Int) := by
  have hi0 : (i 0).val < 64 := (i 0).isLt
  have hi1 : (i 1).val < 256 := (i 1).isLt
  have hs0 : SH.size (0 : Fin 2) = 64 := rfl
  have hs1 : SH.size (1 : Fin 2) = 256 := rfl
  have v0 : histDims.start j idx (0 : Fin 2) + ((histDims.window j (0 : Fin 2) : ℕ) : Int)
      = (idx (ix3 (j 0) (j 1) (0 : Fin 2))).toInt := by
    rw [window_eq, start0, Nat.cast_zero, add_zero]
  have v1 : histDims.start j idx (1 : Fin 2) + ((histDims.window j (1 : Fin 2) : ℕ) : Int)
      = (idx (ix3 (j 0) (j 1) (1 : Fin 2))).toInt := by
    rw [window_eq, start1, Nat.cast_zero, add_zero]
  unfold ScatterDims.resultIdx?
  split
  · rename_i h
    have h0 := h (0 : Fin 2)
    have h1 := h (1 : Fin 2)
    rw [v0, hs0] at h0
    rw [v1, hs1] at h1
    rw [Option.some.injEq]
    constructor
    · intro e
      have e0 : (histDims.start j idx (0 : Fin 2) + ((histDims.window j (0 : Fin 2) : ℕ) : Int)).toNat
          = (i 0).val := congrArg Fin.val (congrFun e (0 : Fin 2))
      have e1 : (histDims.start j idx (1 : Fin 2) + ((histDims.window j (1 : Fin 2) : ℕ) : Int)).toNat
          = (i 1).val := congrArg Fin.val (congrFun e (1 : Fin 2))
      rw [v0] at e0
      rw [v1] at e1
      constructor <;> omega
    · rintro ⟨e0, e1⟩
      funext a
      apply Fin.ext
      match a with
      | ⟨0, _⟩ =>
        show (histDims.start j idx (0 : Fin 2) + ((histDims.window j (0 : Fin 2) : ℕ) : Int)).toNat = (i 0).val
        rw [v0]; omega
      | ⟨1, _⟩ =>
        show (histDims.start j idx (1 : Fin 2) + ((histDims.window j (1 : Fin 2) : ℕ) : Int)).toNat = (i 1).val
        rw [v1]; omega
  · rename_i h
    constructor
    · intro e; exact absurd e (by simp)
    · rintro ⟨e0, e1⟩
      exfalso
      apply h
      intro a
      match a with
      | ⟨0, _⟩ =>
        show 0 ≤ histDims.start j idx (0 : Fin 2) + ((histDims.window j (0 : Fin 2) : ℕ) : Int) ∧
          histDims.start j idx (0 : Fin 2) + ((histDims.window j (0 : Fin 2) : ℕ) : Int) < ((SH.size (0 : Fin 2) : ℕ) : Int)
        rw [v0, hs0]; omega
      | ⟨1, _⟩ =>
        show 0 ≤ histDims.start j idx (1 : Fin 2) + ((histDims.window j (1 : Fin 2) : ℕ) : Int) ∧
          histDims.start j idx (1 : Fin 2) + ((histDims.window j (1 : Fin 2) : ℕ) : Int) < ((SH.size (1 : Fin 2) : ℕ) : Int)
        rw [v1, hs1]; omega

/-- The scatter-add of ones at (row, saturated integer value) into zeros is the histogram. -/
theorem scatterAdd_hist (x : SX.Idx → EReal) (hx : ∀ i, ∃ k : ℕ, x i = ((k : ℝ) : EReal))
    (idx : IVec SI 32)
    (hrow : ∀ (n : Fin 64) (l : Fin 262144), (idx (ix3 n l (0 : Fin 2))).toInt = (n.val : Int))
    (hbin : ∀ (n : Fin 64) (l : Fin 262144) (k : ℕ), x (ix2 n l) = ((k : ℝ) : EReal) →
      (idx (ix3 n l (1 : Fin 2))).toInt = ((min k (2 ^ 31 - 1) : ℕ) : Int))
    (z : SH.Idx → EReal) (hz : ∀ j, z j = 0) (u : SX.Idx → EReal) (hu : ∀ i, u i = 1) :
    Host.scatterAdd (F := Ideal) (φ := .f32) histDims z idx u = hist x := by
  funext i
  obtain ⟨a, b, rfl⟩ : ∃ (a : Fin 64) (b : Fin 256), i = ix2 a b := ⟨i 0, i 1, eq_ix2 i⟩
  show z (ix2 a b) + ∑ j ∈ Finset.univ.filter (fun j => histDims.resultIdx? j idx = some (ix2 a b)), u j
    = ∑ l : Fin 262144, ind (x (ix2 a l)) b.val
  rw [hz, zero_add, Finset.sum_filter, sum_idx2]
  have hb256 : b.val < 256 := b.isLt
  -- One update (n, l) lands on (a, b) exactly when its row n is a and its value x (n, l) is the real number b
  -- (the saturated word min k (2^31 - 1) is b < 256 only for k = b).
  have key : ∀ (n : Fin 64) (l : Fin 262144),
      (if histDims.resultIdx? (ix2 n l) idx = some (ix2 a b) then u (ix2 n l) else 0)
        = if n = a then ind (x (ix2 n l)) b.val else 0 := by
    intro n l
    obtain ⟨k, hk⟩ := hx (ix2 n l)
    have iff : histDims.resultIdx? (ix2 n l) idx = some (ix2 a b) ↔
        (idx (ix3 n l (0 : Fin 2))).toInt = (a.val : Int) ∧
        (idx (ix3 n l (1 : Fin 2))).toInt = (b.val : Int) := resultIdx_iff (ix2 n l) idx (ix2 a b)
    rw [hrow n l, hbin n l k hk] at iff
    rw [hu]
    unfold ind
    rw [hk]
    by_cases hn : n = a
    · rw [if_pos hn]
      by_cases hkb : k = b.val
      · have c : histDims.resultIdx? (ix2 n l) idx = some (ix2 a b) := iff.2 ⟨by rw [hn], by omega⟩
        have c2 : ((k : ℝ) : EReal) = ((b.val : ℝ) : EReal) := by rw [hkb]
        rw [if_pos c, if_pos c2]
      · have c : ¬ histDims.resultIdx? (ix2 n l) idx = some (ix2 a b) := fun e => by
          have := (iff.1 e).2
          omega
        have c2 : ¬ ((k : ℝ) : EReal) = ((b.val : ℝ) : EReal) := fun e =>
          hkb (by exact_mod_cast EReal.coe_eq_coe_iff.1 e)
        rw [if_neg c, if_neg c2]
    · have c : ¬ histDims.resultIdx? (ix2 n l) idx = some (ix2 a b) := fun e => by
        have := (iff.1 e).1
        exact hn (Fin.ext (by omega))
      rw [if_neg hn, if_neg c]
  rw [Finset.sum_congr rfl (fun n _ => Finset.sum_congr rfl (fun l _ => key n l))]
  rw [Finset.sum_comm]
  refine Finset.sum_congr rfl (fun l _ => ?_)
  rw [Finset.sum_ite_eq' Finset.univ a (fun n => ind (x (ix2 n l)) b.val), if_pos (Finset.mem_univ _)]

end Cert.Hist

end
-- ==== Proof.RefHist.lean ====
/-
  The reference, read stage by stage: its two scatter-adds are the histograms of its two reshaped inputs (when every
  input entry is a natural number).
  The scatter's index pair for update `(n, l)` is (the row number `n`, wrapped if negative — it never is —, the entry
  converted to a 32-bit integer, plus 256 if negative — it never is for a natural number): so the update lands at row
  `n`, bin `min k (2^31 - 1)` for an entry `k`.
-/
import proofs.«158589_j60833916781214_1_alg».proof.Proof.RefRead
import proofs.«158589_j60833916781214_1_alg».proof.Proof.HistSpec
import proofs.«158589_j60833916781214_1_alg».proof.Proof.ScatterHist
import proofs.«158589_j60833916781214_1_alg».proof.Proof.Tail
import Idealize.ShloMosaic.Lib.ValueIdx
import Idealize.ShloMosaic.Lib.Pipeline.Value

noncomputable section

namespace Cert.ReferenceIdeal.HistRef

open Idealize.ShloMosaic Idealize.ShloMosaic.ValueIdx
open Cert.ReferenceIdeal Cert.ReferenceIdeal.Gen Cert.ReferenceIdeal.ReadP Cert.Hist

/-- A natural number below 2^31, as a 32-bit word, reads signed as itself. -/
private theorem toInt_ofNat_small (n : ℕ) (h : n < 2 ^ 31) : (BitVec.ofNat 32 n).toInt = (n : Int) := by
  rw [BitVec.toInt_eq_toNat_cond, BitVec.toNat_ofNat]
  have e : n % 2 ^ 32 = n := Nat.mod_eq_of_lt (by omega)
  rw [e, if_pos (by omega)]

/-- "If negative, wrap" leaves the word of a natural number below 2^31 alone: it is not negative. -/
private theorem select_slt_zero (m : ℕ) (hm : m < 2 ^ 31) (y : BitVec 32) :
    Scalar.select (IntOp.cmpi .slt (BitVec.ofNat 32 m) 0#32) y (BitVec.ofNat 32 m) = BitVec.ofNat 32 m := by
  have hc : IntOp.cmpi .slt (BitVec.ofNat 32 m) 0#32 = 0#1 := by
    show BitVec.ofBool ((BitVec.ofNat 32 m).slt 0#32) = 0#1
    have : (BitVec.ofNat 32 m).slt 0#32 = false := by
      rw [BitVec.slt, toInt_ofNat_small m hm, BitVec.toInt_zero]
      exact decide_eq_false (by omega)
    rw [this]; rfl
  rw [hc, select_zero]

/-- The conversion to a signed 32-bit integer takes the real number `k`, a natural number, to the word of
    `min k (2^31 - 1)`: it truncates (nothing to do) and saturates at the largest integer. -/
private theorem fptosi_nat (k : ℕ) :
    Ideal.fptosi 32 ((k : ℝ) : EReal) = BitVec.ofNat 32 (min k (2 ^ 31 - 1)) := by
  have hfl : (if (0 : ℝ) ≤ (k : ℝ) then ⌊(k : ℝ)⌋ else ⌈(k : ℝ)⌉) = (k : ℤ) := by
    rw [if_pos (Nat.cast_nonneg k), Int.floor_natCast]
  rw [Ideal.fptosi, Ideal.toIntClamped_coe, hfl]
  have e : max (-((2 ^ (32 - 1) : ℕ) : ℤ)) (min (((2 ^ (32 - 1) : ℕ) : ℤ) - 1) (k : ℤ))
      = ((min k (2 ^ 31 - 1) : ℕ) : ℤ) := by
    omega
  rw [e, BitVec.ofInt_natCast]

/-- The 32-bit float word 0x3F800000 is the number one. -/
private theorem ofBits_one_f32 : Ideal.ofBits .f32 0x3F800000#32 = 1 := by
  simp [Ideal.ofBits, Ideal.ieee, -EReal.coe_mul]; norm_num

/-- The row-number column at `i`: the word of `i`'s row. -/
private theorem v4_at (i : S64x1.Idx) : val_main_v4 (F := Ideal) i = BitVec.ofNat 32 (i 0).val := by
  rw [val_main_v4_apply, val_main_v3_apply]

/-- The row number after "if negative, add 64": still the word of the row, a row number is not negative. -/
private theorem v9_at (i : S64x1.Idx) : val_main_v9 (F := Ideal) i = BitVec.ofNat 32 (i 0).val := by
  have hlt : (i 0).val < 64 := (i 0).isLt
  rw [val_main_v9_apply, val_main_v6_apply, val_main_v5_apply, val_main_c_apply, v4_at]
  exact select_slt_zero _ (by omega) _

/-- The entry converted to an integer, after "if negative, add 256": for an entry that is the natural number `k`,
    the word of `min k (2^31 - 1)`. -/
private theorem v14_at (x0 : (⟨S64x256x32x32, .f32⟩ : BufTy).Contents (Elt Ideal)) (i : S64x262144.Idx) (k : ℕ)
    (hk : val_main_v0 (F := Ideal) x0 i = ((k : ℝ) : EReal)) :
    val_main_v14 (F := Ideal) x0 i = BitVec.ofNat 32 (min k (2 ^ 31 - 1)) := by
  have h1 : val_main_v1 (F := Ideal) x0 i = BitVec.ofNat 32 (min k (2 ^ 31 - 1)) := by
    rw [val_main_v1_apply, hk]; exact fptosi_nat k
  rw [val_main_v14_apply, val_main_v11_apply, val_main_v10_apply, val_main_c_1_apply, h1]
  exact select_slt_zero _ (by omega) _

/-- The first word of update `(n, l)`'s index pair is the row number `n`. -/
private theorem v18_row (x0 : (⟨S64x256x32x32, .f32⟩ : BufTy).Contents (Elt Ideal)) (n : Fin 64) (l : Fin 262144) :
    val_main_v18 (F := Ideal) x0 (ix3 n l (0 : Fin 2)) = BitVec.ofNat 32 n.val := by
  have e : val_main_v18 (F := Ideal) x0 (ix3 n l (0 : Fin 2)) = val_main_v16 (F := Ideal) (ix3 n l (0 : Fin 1)) := by
    unfold val_main_v18
    exact concatenate_pair_apply_left (t := S64x262144x2) (s₁ := S64x262144x1) (s₂ := S64x262144x1) (2 : Fin 3)
      (val_main_v16 (F := Ideal)) (val_main_v17 (F := Ideal) x0) concatenates_S64x262144x1_S64x262144x1_S64x262144x2_d2
      (ix3 n l (0 : Fin 2)) rfl (ix3 n l (0 : Fin 1))
      (fun b => match b with | ⟨0, _⟩ => rfl | ⟨1, _⟩ => rfl | ⟨2, _⟩ => rfl)
  rw [e, val_main_v16_apply, val_main_v15_apply, v9_at]

/-- The second word of update `(n, l)`'s index pair is the converted entry. -/
private theorem v18_bin (x0 : (⟨S64x256x32x32, .f32⟩ : BufTy).Contents (Elt Ideal)) (n : Fin 64) (l : Fin 262144) :
    val_main_v18 (F := Ideal) x0 (ix3 n l (1 : Fin 2)) = val_main_v14 (F := Ideal) x0 (ix2 n l) := by
  have e : val_main_v18 (F := Ideal) x0 (ix3 n l (1 : Fin 2)) = val_main_v17 (F := Ideal) x0 (ix3 n l (0 : Fin 1)) := by
    unfold val_main_v18
    exact concatenate_pair_apply_right (t := S64x262144x2) (s₁ := S64x262144x1) (s₂ := S64x262144x1) (2 : Fin 3)
      (val_main_v16 (F := Ideal)) (val_main_v17 (F := Ideal) x0) concatenates_S64x262144x1_S64x262144x1_S64x262144x2_d2
      (ix3 n l (1 : Fin 2)) rfl rfl (ix3 n l (0 : Fin 1))
      (fun b => match b with
        | ⟨0, _⟩ => fun _ => rfl
        | ⟨1, _⟩ => fun _ => rfl
        | ⟨2, _⟩ => fun h => absurd rfl h)
      rfl
  have e2 : idx_main_v17 (ix3 n l (0 : Fin 1)) = ix2 n l := by
    funext a; match a with | ⟨0, _⟩ => rfl | ⟨1, _⟩ => rfl
  rw [e, val_main_v17_apply, e2]

/-- The first scatter-add is the histogram of the first input, flattened. -/
theorem hist_s (x0 : (⟨S64x256x32x32, .f32⟩ : BufTy).Contents (Elt Ideal)) (h0 : ∀ i, ∃ k : ℕ, x0 i = ((k : ℝ) : EReal)) :
    val_main_v20 (F := Ideal) x0 = hist (val_main_v0 (F := Ideal) x0) := by
  have hx : ∀ i, ∃ k : ℕ, val_main_v0 (F := Ideal) x0 i = ((k : ℝ) : EReal) := fun i => by
    rw [val_main_v0_apply]; exact h0 _
  have hrow : ∀ (n : Fin 64) (l : Fin 262144),
      (val_main_v18 (F := Ideal) x0 (ix3 n l (0 : Fin 2))).toInt = (n.val : Int) := fun n l => by
    have := n.isLt
    rw [v18_row]; exact toInt_ofNat_small _ (by omega)
  have hbin : ∀ (n : Fin 64) (l : Fin 262144) (k : ℕ), val_main_v0 (F := Ideal) x0 (ix2 n l) = ((k : ℝ) : EReal) →
      (val_main_v18 (F := Ideal) x0 (ix3 n l (1 : Fin 2))).toInt = ((min k (2 ^ 31 - 1) : ℕ) : Int) := fun n l k hk => by
    rw [v18_bin, v14_at x0 _ k hk]; exact toInt_ofNat_small _ (by omega)
  have hz : ∀ j, val_main_v2 (F := Ideal) j = 0 := fun j => by
    rw [val_main_v2_apply, val_main_cst_apply]; exact Ideal.ofBits_zero_f32
  have hu : ∀ i, val_main_v19 (F := Ideal) i = 1 := fun i => by
    rw [val_main_v19_apply, val_main_cst_3_apply]; exact ofBits_one_f32
  unfold val_main_v20
  exact scatterAdd_hist (val_main_v0 (F := Ideal) x0) hx (val_main_v18 (F := Ideal) x0) hrow hbin
    (val_main_v2 (F := Ideal)) hz (val_main_v19 (F := Ideal)) hu

/-- The second scatter-add is the histogram of the second input, flattened. -/
theorem hist_t (x1 : (⟨S64x256x32x32, .f32⟩ : BufTy).Contents (Elt Ideal)) (h1 : ∀ i, ∃ k : ℕ, x1 i = ((k : ℝ) : EReal)) :
    val_main_v44 (F := Ideal) x1 = hist (val_main_v24 (F := Ideal) x1) := by
  -- The second scatter-add's stages are, operation for operation, the first one's: the same functions of the input.
  have e1 : val_main_v44 (F := Ideal) x1 = val_main_v20 (F := Ideal) x1 := rfl
  have e2 : val_main_v24 (F := Ideal) x1 = val_main_v0 (F := Ideal) x1 := rfl
  rw [e1, e2]
  exact hist_s x1 h1

end Cert.ReferenceIdeal.HistRef

end
-- ==== Proof.RefTail.lean ====
/-
  Everything the reference computes after its two scatter-adds, read as ONE function of their two results: the common
  tail. Both sides are the same operations in the same order on the same constants, so this is an unfolding.
-/
import proofs.«158589_j60833916781214_1_alg».proof.Proof.RefRead
import proofs.«158589_j60833916781214_1_alg».proof.Proof.Tail

set_option maxRecDepth 65536

noncomputable section

namespace Cert.ReferenceIdeal.HistRef

open Idealize.ShloMosaic
open Cert.ReferenceIdeal Cert.ReferenceIdeal.Gen Cert.ReferenceIdeal.ReadP Cert.Hist

variable {F : FTy → Type} [FloatOps F]

/-- The stages after the two scatter-adds are the common tail of their results. -/
theorem result_tail (x0 x1 : (⟨S64x256x32x32, .f32⟩ : BufTy).Contents (Elt F)) :
    val_main_v69 (F := F) x0 x1 = tail (val_main_v20 (F := F) x0) (val_main_v44 (F := F) x1) := by
  simp only [val_main_cst_4, val_main_v21, val_main_v22, val_main_v23, val_main_cst_11, val_main_v45, val_main_v46, val_main_v47, val_main_cst_12, val_main_v48, val_main_v49, val_main_call0_cst, val_main_call0_v0, val_main_call0_cst_0, val_main_call0_v1, val_main_call0_v2, val_main_call0_v3, val_main_call0_v4, val_main_call0_v5, val_main_call0_v6, val_main_call0_cst_1, val_main_call0_v7, val_main_call0_v8, val_main_call0_v9, val_main_call0_v10, val_main_v50, val_main_cst_13, val_main_v51, val_main_v52, val_main_cst_14, val_main_v53, val_main_cst_15, val_main_v54, val_main_v55, val_main_v56, val_main_v57, val_main_v58, val_main_v59, val_main_cst_16, val_main_v60, val_main_v61, val_main_v62, val_main_v63, val_main_v64, val_main_v65, val_main_v66, val_main_cst_17, val_main_v67, val_main_cst_18, val_main_v68, val_main_cst_19, val_main_v69]
  generalize val_main_v20 (F := F) x0 = hs
  generalize val_main_v44 (F := F) x1 = ht
  rfl

end Cert.ReferenceIdeal.HistRef

end
-- ==== Proof.PreNat.lean ====
/-
  What the precondition says of the inputs, entry by entry: every entry of both arrays is finite, equals its own
  floor, and is at least zero — that is, every entry is a natural number (as an extended real).
-/
import proofs.«158589_j60833916781214_1_alg».proof.Pre_finite_inputs
import Idealize.ShloMosaic.PureOps.Ideal
import Idealize.ShloMosaic.Lib.ReduceAll
import Idealize.ShloMosaic.Lib.ValueIdx

noncomputable section

namespace Cert.PreNat

open Idealize.ShloMosaic

variable [Cert.Pre_finite_inputs.Facts]

/-- The result shape of a reduction over every axis has exactly one index. -/
private theorem subsingleton_idx : Subsingleton Cert.Pre_finite_inputs.S_.Idx :=
  ⟨fun _ _ => funext fun d => d.elim0⟩

/-- The word `0x7F800000` denotes `+∞`. -/
private theorem ofBits_inf : Ideal.ofBits .f32 0x7F800000#32 = (⊤ : EReal) := by
  simp [Ideal.ofBits, Ideal.ieee]

/-- The word `0x00000000` denotes `0`. -/
private theorem ofBits_zero : Ideal.ofBits .f32 0x00000000#32 = (0 : EReal) := by
  simp [Ideal.ofBits, Ideal.ieee]

/-- A decided proposition whose one-bit word is 1 holds. -/
private theorem of_ofBool_eq_one {p : Prop} [Decidable p] (h : BitVec.ofBool (decide p) = 1#1) : p := by
  by_contra hp
  rw [decide_eq_false hp] at h
  exact absurd h (by decide)

/-- A strict comparison that answers 1 holds. -/
private theorem lt_of_cmp {x y : EReal} (h : Ideal.cmp .olt x y = 1#1) : x < y := of_ofBool_eq_one h

/-- An equality test that answers 1 holds. -/
private theorem eq_of_cmp {x y : EReal} (h : Ideal.cmp .oeq x y = 1#1) : x = y := of_ofBool_eq_one h

/-- A test "at least" that answers 1 holds. -/
private theorem ge_of_cmp {x y : EReal} (h : Ideal.cmp .oge x y = 1#1) : y ≤ x := of_ofBool_eq_one h

/-- An extended real of finite absolute value, equal to its own floor and at least zero, is a natural number:
    it is a real `r` with `r = ⌊r⌋` and `0 ≤ ⌊r⌋`, so `⌊r⌋` is the integer of a natural number. -/
private theorem nat_of_entry (x : EReal) (hfin : max x (-x) < ⊤) (hfl : x = Ideal.liftRound Int.floor x)
    (hnn : (0 : EReal) ≤ x) : ∃ k : ℕ, x = ((k : ℝ) : EReal) := by
  induction x using EReal.rec with
  | bot => exact absurd hnn (by simp)
  | top => exact absurd hfin (by simp)
  | coe r =>
    rw [Ideal.liftRound_coe, EReal.coe_eq_coe_iff] at hfl
    have h0 : (0 : ℝ) ≤ r := by exact_mod_cast hnn
    obtain ⟨n, hn⟩ := Int.eq_ofNat_of_zero_le (Int.floor_nonneg.2 h0)
    refine ⟨n, ?_⟩
    rw [hn] at hfl
    rw [hfl]
    simp

/-- Under the precondition every entry of both inputs is a natural number. -/
theorem nat_of_pre (a b : FVec Ideal Cert.Pre_finite_inputs.S64x256x32x32 .f32)
    (h : Cert.Pre_finite_inputs.fn (F := Ideal) a b = fun _ => 1#1) :
    (∀ i, ∃ k : ℕ, a i = ((k : ℝ) : EReal)) ∧ (∀ i, ∃ k : ℕ, b i = ((k : ℝ) : EReal)) := by
  haveI := subsingleton_idx
  have h0 := congrFun h ValueIdx.ix0
  dsimp only [Cert.Pre_finite_inputs.fn, Cert.Pre_finite_inputs.fn_part1] at h0
  -- the conjunction of the six tests, split
  obtain ⟨h5, hb_nn⟩ := IntOp.andi_eq_one.1 h0
  obtain ⟨h4, ha_nn⟩ := IntOp.andi_eq_one.1 h5
  obtain ⟨h3, hb_fl⟩ := IntOp.andi_eq_one.1 h4
  obtain ⟨h2, ha_fl⟩ := IntOp.andi_eq_one.1 h3
  obtain ⟨ha_fin, hb_fin⟩ := IntOp.andi_eq_one.1 h2
  constructor
  · intro i
    have e1 := Host.reduce_andi_all _ _ _ _ _ ha_fin i
    have e2 := Host.reduce_andi_all _ _ _ _ _ ha_fl i
    have e3 := Host.reduce_andi_all _ _ _ _ _ ha_nn i
    refine nat_of_entry (a i) ?_ (eq_of_cmp e2) ?_
    · have this : max (a i) (-(a i)) < Ideal.ofBits .f32 0x7F800000#32 := lt_of_cmp e1
      rwa [ofBits_inf] at this
    · have this : Ideal.ofBits .f32 0x00000000#32 ≤ a i := ge_of_cmp e3
      rwa [ofBits_zero] at this
  · intro i
    have e1 := Host.reduce_andi_all _ _ _ _ _ hb_fin i
    have e2 := Host.reduce_andi_all _ _ _ _ _ hb_fl i
    have e3 := Host.reduce_andi_all _ _ _ _ _ hb_nn i
    refine nat_of_entry (b i) ?_ (eq_of_cmp e2) ?_
    · have this : max (b i) (-(b i)) < Ideal.ofBits .f32 0x7F800000#32 := lt_of_cmp e1
      rwa [ofBits_inf] at this
    · have this : Ideal.ofBits .f32 0x00000000#32 ≤ b i := ge_of_cmp e3
      rwa [ofBits_zero] at this

end Cert.PreNat

end
-- ==== Proof.lean ====
/-
  The certificate's claims. Both programs compute, from two float arrays of shape [64, 256, 32, 32] flattened to 64 rows
  of 262144 entries, the histogram of each over the bins 0 … 255, and then one and the same loss from the two
  histograms (logarithms, a log-softmax of the first, a softmax of the second, their Kullback–Leibler sum, scaled).
  The kernel counts by comparing every entry with every bin value and summing along the row in blocks of 256; the
  reference converts every entry to an integer and scatter-adds a one at that bin. Under the precondition every entry
  is a natural number k; then the entry is counted at bin b by the kernel iff k = b, and by the reference iff the
  saturated integer min k (2^31 - 1) is b, which for b < 256 is the same condition, an entry k ≥ 256 being counted by
  neither. So the histograms agree, and the results are the same function (the common tail) of equal arguments.
  The frames are the generated frame certificates (the reference's is its run with the result dropped); the ideal
  pass rewrote nothing, so `preserves` is trivial.
-/
import proofs.«158589_j60833916781214_1_alg».proof.Defs
import proofs.«158589_j60833916781214_1_alg».proof.Proof.Gen.Kernel
import proofs.«158589_j60833916781214_1_alg».proof.Proof.Gen.Kernel.Skeleton
import proofs.«158589_j60833916781214_1_alg».proof.Proof.Gen.Kernel.Launch
import proofs.«158589_j60833916781214_1_alg».proof.Proof.Gen.Kernel.Points
import proofs.«158589_j60833916781214_1_alg».proof.Proof.Gen.Kernel.Frame
import proofs.«158589_j60833916781214_1_alg».proof.Proof.Gen.KernelIdeal
import proofs.«158589_j60833916781214_1_alg».proof.Proof.Gen.KernelIdeal.Skeleton
import proofs.«158589_j60833916781214_1_alg».proof.Proof.Gen.KernelIdeal.Launch
import proofs.«158589_j60833916781214_1_alg».proof.Proof.Gen.KernelIdeal.Points
import proofs.«158589_j60833916781214_1_alg».proof.Proof.Gen.KernelIdeal.Frame
import proofs.«158589_j60833916781214_1_alg».proof.Proof.Gen.ReferenceIdeal
import proofs.«158589_j60833916781214_1_alg».proof.Proof.Gen.Pre_finite_inputs
import proofs.«158589_j60833916781214_1_alg».proof.Proof.KernelValue
import proofs.«158589_j60833916781214_1_alg».proof.Proof.RefRun
import proofs.«158589_j60833916781214_1_alg».proof.Proof.RefRead
import proofs.«158589_j60833916781214_1_alg».proof.Proof.RefHist
import proofs.«158589_j60833916781214_1_alg».proof.Proof.RefTail
import proofs.«158589_j60833916781214_1_alg».proof.Proof.PreNat
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- At the ideal instance the kernel's result is the common tail of the histograms of its two flattened inputs (its
    run, read back), and the reference's is the same tail of its two scatter-adds, which under the precondition — every
    entry a natural number — are the histograms of the same flattened inputs. -/
theorem algebraic : Cert.algebraic_KernelIdeal_ReferenceIdeal := by
  intro m ρ m' ρ' hpre hagree
  refine ⟨_, Cert.KernelIdeal.HistValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨hn0, hn1⟩ := Cert.PreNat.nat_of_pre _ _ (hpre c)
  rw [Cert.ReferenceIdeal.ReadP.val_main_v69_eq, Cert.ReferenceIdeal.HistRef.result_tail, (hagree c).1, (hagree c).2,
    Cert.ReferenceIdeal.HistRef.hist_s _ hn0, Cert.ReferenceIdeal.HistRef.hist_t _ hn1]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
